-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072x3 : Shape := ⟨2, ![131072, 3]⟩
abbrev S1024x48 : Shape := ⟨2, ![1024, 48]⟩
abbrev S48 : Shape := ⟨1, ![48]⟩
abbrev S1024x3 : Shape := ⟨2, ![1024, 3]⟩
abbrev S3 : Shape := ⟨1, ![3]⟩
abbrev S1024x1 : Shape := ⟨2, ![1024, 1]⟩
abbrev S1 : Shape := ⟨1, ![1]⟩
abbrev S1024x4 : Shape := ⟨2, ![1024, 4]⟩
abbrev S4 : Shape := ⟨1, ![4]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072x3 : S_.BroadcastsInDim S131072x3 (![] : Fin 0 → Fin S131072x3.rank)
  reducesTo_S131072x3_S_d0_1 : S131072x3.ReducesTo [0, 1] S_
  bcast_S_S1024x48 : S_.BroadcastsInDim S1024x48 (![] : Fin 0 → Fin S1024x48.rank)
  reducesTo_S1024x48_S_d0_1 : S1024x48.ReducesTo [0, 1] S_
  bcast_S_S48 : S_.BroadcastsInDim S48 (![] : Fin 0 → Fin S48.rank)
  reducesTo_S48_S_d0 : S48.ReducesTo [0] S_
  bcast_S_S1024x3 : S_.BroadcastsInDim S1024x3 (![] : Fin 0 → Fin S1024x3.rank)
  reducesTo_S1024x3_S_d0_1 : S1024x3.ReducesTo [0, 1] S_
  bcast_S_S3 : S_.BroadcastsInDim S3 (![] : Fin 0 → Fin S3.rank)
  reducesTo_S3_S_d0 : S3.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg11 : FVec F S4 .f32) (main_v48 : IVec S_ 1) (main_v49 : FVec F S1024x4 .f32) (main_v50 : FVec F S1024x4 .f32) : IVec S_ 1 :=
  let main_v51 : IVec S1024x4 1 := cmpf .olt main_v49 main_v50
  let main_c_19 : IVec S_ 1 := constantI S_ 1 1#1
  let main_v52 : IVec S_ 1 := (fun x v => Host.reduce IntOp.andi x v reducesTo_S1024x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg7 : FVec F S3 .f32) (main_arg8 : FVec F S1024x1 .f32) (main_arg9 : FVec F S1 .f32) (main_arg10 : FVec F S1024x4 .f32) (main_arg11 : FVec F S4 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S1024x1 .f32 := Host.absf main_arg8
  let main_cst_14 : FVec F S_ .f32 := constant S_ .f32 0x7F800000#32
  let main_v40 : FVec F S1024x1 .f32 := broadcastInDim S1024x1 ![] bcast_S_S1024x1 main_cst_14
  let main_v41 : IVec S1024x1 1 := cmpf .olt main_v39 main_v40
  let main_c_15 : IVec S_ 1 := constantI S_ 1 1#1
  let main_v42 : IVec S_ 1 := (fun x v => Host.reduce IntOp.andi x v reducesTo_S1024x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1024x4 .f32 := Host.absf main_arg10
  let main_cst_18 : FVec F S_ .f32 := constant S_ .f32 0x7F800000#32
  let main_v50 : FVec F S1024x4 .f32 := broadcastInDim S1024x4 ![] bcast_S_S1024x4 main_cst_18
  fn_part3 (F := F) main_arg11 main_v48 main_v49 main_v50

def fn_part1 {F : FTy → Type} [FloatOps F] (main_arg4 : FVec F S1024x3 .f32) (main_arg5 : FVec F S3 .f32) (main_arg6 : FVec F S1024x3 .f32) (main_arg7 : FVec F S3 .f32) (main_arg8 : FVec F S1024x1 .f32) (main_arg9 : FVec F S1 .f32) (main_arg10 : FVec F S1024x4 .f32) (main_arg11 : FVec F S4 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S1024x3 .f32 := Host.absf main_arg4
  let main_cst_6 : FVec F S_ .f32 := constant S_ .f32 0x7F800000#32
  let main_v20 : FVec F S1024x3 .f32 := broadcastInDim S1024x3 ![] bcast_S_S1024x3 main_cst_6
  let main_v21 : IVec S1024x3 1 := cmpf .olt main_v19 main_v20
  let main_c_7 : IVec S_ 1 := constantI S_ 1 1#1
  let main_v22 : IVec S_ 1 := (fun x v => Host.reduce IntOp.andi x v reducesTo_S1024x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S1024x3 .f32 := Host.absf main_arg6
  let main_cst_10 : FVec F S_ .f32 := constant S_ .f32 0x7F800000#32
  let main_v30 : FVec F S1024x3 .f32 := broadcastInDim S1024x3 ![] bcast_S_S1024x3 main_cst_10
  let main_v31 : IVec S1024x3 1 := cmpf .olt main_v29 main_v30
  let main_c_11 : IVec S_ 1 := constantI S_ 1 1#1
  let main_v32 : IVec S_ 1 := (fun x v => Host.reduce IntOp.andi x v reducesTo_S1024x3_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x1024 .f32) (main_arg1 : FVec F S131072x3 .f32) (main_arg2 : FVec F S1024x48 .f32) (main_arg3 : FVec F S48 .f32) (main_arg4 : FVec F S1024x3 .f32) (main_arg5 : FVec F S3 .f32) (main_arg6 : FVec F S1024x3 .f32) (main_arg7 : FVec F S3 .f32) (main_arg8 : FVec F S1024x1 .f32) (main_arg9 : FVec F S1 .f32) (main_arg10 : FVec F S1024x4 .f32) (main_arg11 : FVec F S4 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072x3 .f32 := Host.absf main_arg1
  let main_cst_0 : FVec F S_ .f32 := constant S_ .f32 0x7F800000#32
  let main_v5 : FVec F S131072x3 .f32 := broadcastInDim S131072x3 ![] bcast_S_S131072x3 main_cst_0
  let main_v6 : IVec S131072x3 1 := cmpf .olt main_v4 main_v5
  let main_c_1 : IVec S_ 1 := constantI S_ 1 1#1
  let main_v7 : IVec S_ 1 := (fun x v => Host.reduce IntOp.andi x v reducesTo_S131072x3_S_d0_1 h_S_) main_v6 main_c_1
  let main_v8 : IVec S_ 1 := andi main_v3 main_v7
  let main_v9 : FVec F S1024x48 .f32 := Host.absf main_arg2
  let main_cst_2 : FVec F S_ .f32 := constant S_ .f32 0x7F800000#32
  let main_v10 : FVec F S1024x48 .f32 := broadcastInDim S1024x48 ![] bcast_S_S1024x48 main_cst_2
  let main_v11 : IVec S1024x48 1 := cmpf .olt main_v9 main_v10
  let main_c_3 : IVec S_ 1 := constantI S_ 1 1#1
  let main_v12 : IVec S_ 1 := (fun x v => Host.reduce IntOp.andi x v reducesTo_S1024x48_S_d0_1 h_S_) main_v11 main_c_3
  let main_v13 : IVec S_ 1 := andi main_v8 main_v12
  let main_v14 : FVec F S48 .f32 := Host.absf main_arg3
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg4 main_arg5 main_arg6 main_arg7 main_arg8 main_arg9 main_arg10 main_arg11 main_v13 main_v16
-- ==== Kernel.lean ====
abbrev S131072x1024 : Shape := ⟨2, ![131072, 1024]⟩
abbrev S131072x3 : Shape := ⟨2, ![131072, 3]⟩
abbrev S1024x48 : Shape := ⟨2, ![1024, 48]⟩
abbrev S48 : Shape := ⟨1, ![48]⟩
abbrev S1024x3 : Shape := ⟨2, ![1024, 3]⟩
abbrev S3 : Shape := ⟨1, ![3]⟩
abbrev S1024x1 : Shape := ⟨2, ![1024, 1]⟩
abbrev S1 : Shape := ⟨1, ![1]⟩
abbrev S1024x4 : Shape := ⟨2, ![1024, 4]⟩
abbrev S4 : Shape := ⟨1, ![4]⟩
abbrev S1024x59 : Shape := ⟨2, ![1024, 59]⟩
abbrev S59 : Shape := ⟨1, ![59]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S131072x62 : Shape := ⟨2, ![131072, 62]⟩
abbrev S2048x1024 : Shape := ⟨2, ![2048, 1024]⟩
abbrev S2048x3 : Shape := ⟨2, ![2048, 3]⟩
abbrev S2048x62 : Shape := ⟨2, ![2048, 62]⟩
abbrev S2048x128 : Shape := ⟨2, ![2048, 128]⟩
abbrev S2048x48 : Shape := ⟨2, ![2048, 48]⟩
abbrev S2048x1 : Shape := ⟨2, ![2048, 1]⟩
abbrev S2048x4 : Shape := ⟨2, ![2048, 4]⟩
abbrev S2048 : Shape := ⟨1, ![2048]⟩

abbrev nBuf : Space → Nat
  | .hbm => 22
  | .vmem => 8
  | .smem => 0
  | _ => 0

abbrev bufTy : (tb : Table) → Fin (tcTables nBuf tb) → BufTy
  | .hbm, ⟨0, _⟩ => ⟨S131072x1024, .f32⟩
  | .hbm, ⟨1, _⟩ => ⟨S131072x3, .f32⟩
  | .hbm, ⟨2, _⟩ => ⟨S1024x48, .f32⟩
  | .hbm, ⟨3, _⟩ => ⟨S48, .f32⟩
  | .hbm, ⟨4, _⟩ => ⟨S1024x3, .f32⟩
  | .hbm, ⟨5, _⟩ => ⟨S3, .f32⟩
  | .hbm, ⟨6, _⟩ => ⟨S1024x3, .f32⟩
  | .hbm, ⟨7, _⟩ => ⟨S3, .f32⟩
  | .hbm, ⟨8, _⟩ => ⟨S1024x1, .f32⟩
  | .hbm, ⟨9, _⟩ => ⟨S1, .f32⟩
  | .hbm, ⟨10, _⟩ => ⟨S1024x4, .f32⟩
  | .hbm, ⟨11, _⟩ => ⟨S4, .f32⟩
  | .hbm, ⟨12, _⟩ => ⟨S1024x59, .f32⟩
  | .hbm, ⟨13, _⟩ => ⟨S59, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S131072x62, .f32⟩
  | .local _ .vmem, ⟨0, _⟩ => ⟨S2048x1024, .f32⟩
  | .local _ .vmem, ⟨1, _⟩ => ⟨S2048x1024, .f32⟩
  | .local _ .vmem, ⟨2, _⟩ => ⟨S2048x3, .f32⟩
  | .local _ .vmem, ⟨3, _⟩ => ⟨S2048x3, .f32⟩
  | .local _ .vmem, ⟨4, _⟩ => ⟨S1024x128, .f32⟩
  | .local _ .vmem, ⟨5, _⟩ => ⟨S1x128, .f32⟩
  | .local _ .vmem, ⟨6, _⟩ => ⟨S2048x62, .f32⟩
  | .local _ .vmem, ⟨7, _⟩ => ⟨S2048x62, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x62 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S1024x48_S1024x3_S1024x3_S1024x1_S1024x4_S1024x59_d1 : Shape.Concatenates [S1024x48, S1024x3, S1024x3, S1024x1, S1024x4] S1024x59 1
  concatenates_S48_S3_S3_S1_S4_S59_d0 : Shape.Concatenates [S48, S3, S3, S1, S4] S59 0
  pads_S1024x59_S1024x128_000_0690 : S1024x59.Pads (![0, 0] : Fin 2 → Nat) ![0, 69] ![0, 0] S1024x128
  h_S_ : 0 < S_.numel
  pads_S59_S128_0690 : S59.Pads (![0] : Fin 1 → Nat) ![69] ![0] S128
  shapeCasts_S128_S1x128 : S128.ShapeCasts S1x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2048x128_o0_0_S2048x48 : S2048x128.Slices ![0, 0] S2048x48
  slices_S2048x128_o0_48_S2048x3 : S2048x128.Slices ![0, 48] S2048x3
  slices_S2048x128_o0_51_S2048x3 : S2048x128.Slices ![0, 51] S2048x3
  slices_S2048x128_o0_54_S2048x1 : S2048x128.Slices ![0, 54] S2048x1
  slices_S2048x128_o0_55_S2048x4 : S2048x128.Slices ![0, 55] S2048x4
  inb_S2048x3_S2048x3_0_0 : ∀ a, (![0, 0] : Fin 2 → Nat) a + S2048x3.size a ≤ S2048x3.size a
  h_S2048x3 : 0 < S2048x3.numel
  reduces_S2048x4_S2048 : S2048x4.Reduces [1] S2048
  shapeCasts_S2048_S2048x1 : S2048.ShapeCasts S2048x1
  broadcasts_S2048x1_S2048x4 : S2048x1.Broadcasts S2048x4
  concatenates_S2048x48_S2048x3_S2048x3_S2048x3_S2048x1_S2048x4_S2048x62_d1 : Shape.Concatenates [S2048x48, S2048x3, S2048x3, S2048x3, S2048x1, S2048x4] S2048x62 1
  inb_S2048x62_S2048x62_0_0 : ∀ a, (![0, 0] : Fin 2 → Nat) a + S2048x62.size a ≤ S2048x62.size a
  h_S2048x62 : 0 < S2048x62.numel
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S131072x3.size a
  hwx0_1 : ∀ i : grid0.Coords, EltTy.bits .f32 = 32 ∨ (Rect.block (s := S131072x3) S2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x62.size a ≤ S131072x62.size a
  hwx0_4 : ∀ i : grid0.Coords, EltTy.bits .f32 = 32 ∨ (Rect.block (s := S131072x62) S2048x62.size (cc0_transform_4 i) (hinb0_4 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x62.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072x3 : Shape := ⟨2, ![131072, 3]⟩
abbrev S1024x48 : Shape := ⟨2, ![1024, 48]⟩
abbrev S48 : Shape := ⟨1, ![48]⟩
abbrev S1024x3 : Shape := ⟨2, ![1024, 3]⟩
abbrev S3 : Shape := ⟨1, ![3]⟩
abbrev S1024x1 : Shape := ⟨2, ![1024, 1]⟩
abbrev S1 : Shape := ⟨1, ![1]⟩
abbrev S1024x4 : Shape := ⟨2, ![1024, 4]⟩
abbrev S4 : Shape := ⟨1, ![4]⟩
abbrev S131072x48 : Shape := ⟨2, ![131072, 48]⟩
abbrev S1x48 : Shape := ⟨2, ![1, 48]⟩
abbrev S1x3 : Shape := ⟨2, ![1, 3]⟩
abbrev S_ : Shape := ⟨0, ![]⟩
abbrev S131072x1 : Shape := ⟨2, ![131072, 1]⟩
abbrev S1x1 : Shape := ⟨2, ![1, 1]⟩
abbrev S131072x4 : Shape := ⟨2, ![131072, 4]⟩
abbrev S1x4 : Shape := ⟨2, ![1, 4]⟩
abbrev S131072 : Shape := ⟨1, ![131072]⟩
abbrev S131072x62 : Shape := ⟨2, ![131072, 62]⟩

abbrev nBuf : Space → Nat
  | .hbm => 75
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072x3, .f32⟩
  | .hbm, ⟨2, _⟩ => ⟨S1024x48, .f32⟩
  | .hbm, ⟨3, _⟩ => ⟨S48, .f32⟩
  | .hbm, ⟨4, _⟩ => ⟨S1024x3, .f32⟩
  | .hbm, ⟨5, _⟩ => ⟨S3, .f32⟩
  | .hbm, ⟨6, _⟩ => ⟨S1024x3, .f32⟩
  | .hbm, ⟨7, _⟩ => ⟨S3, .f32⟩
  | .hbm, ⟨8, _⟩ => ⟨S1024x1, .f32⟩
  | .hbm, ⟨9, _⟩ => ⟨S1, .f32⟩
  | .hbm, ⟨10, _⟩ => ⟨S1024x4, .f32⟩
  | .hbm, ⟨11, _⟩ => ⟨S4, .f32⟩
  | .hbm, ⟨12, _⟩ => ⟨S131072x48, .f32⟩
  | .hbm, ⟨13, _⟩ => ⟨S1x48, .f32⟩
  | .hbm, ⟨14, _⟩ => ⟨S131072x48, .f32⟩
  | .hbm, ⟨15, _⟩ => ⟨S131072x48, .f32⟩
  | .hbm, ⟨16, _⟩ => ⟨S131072x3, .f32⟩
  | .hbm, ⟨17, _⟩ => ⟨S1x3, .f32⟩
  | .hbm, ⟨18, _⟩ => ⟨S131072x3, .f32⟩
  | .hbm, ⟨19, _⟩ => ⟨S131072x3, .f32⟩
  | .hbm, ⟨20, _⟩ => ⟨S131072x3, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S131072x3, .f32⟩
  | .hbm, ⟨25, _⟩ => ⟨S131072x3, .f32⟩
  | .hbm, ⟨26, _⟩ => ⟨S_, .f32⟩
  | .hbm, ⟨27, _⟩ => ⟨S131072x3, .f32⟩
  | .hbm, ⟨28, _⟩ => ⟨S131072x3, .f32⟩
  | .hbm, ⟨29, _⟩ => ⟨S131072x3, .f32⟩
  | .hbm, ⟨30, _⟩ => ⟨S1x3, .f32⟩
  | .hbm, ⟨31, _⟩ => ⟨S131072x3, .f32⟩
  | .hbm, ⟨32, _⟩ => ⟨S131072x3, .f32⟩
  | .hbm, ⟨33, _⟩ => ⟨S131072x3, .f32⟩
  | .hbm, ⟨34, _⟩ => ⟨S131072x3, .f32⟩
  | .hbm, ⟨35, _⟩ => ⟨S_, .f32⟩
  | .hbm, ⟨36, _⟩ => ⟨S131072x3, .f32⟩
  | .hbm, ⟨37, _⟩ => ⟨S131072x3, .f32⟩
  | .hbm, ⟨38, _⟩ => ⟨S_, .f32⟩
  | .hbm, ⟨39, _⟩ => ⟨S131072x3, .f32⟩
  | .hbm, ⟨40, _⟩ => ⟨S131072x3, .f32⟩
  | .hbm, ⟨41, _⟩ => ⟨S_, .f32⟩
  | .hbm, ⟨42, _⟩ => ⟨S131072x3, .f32⟩
  | .hbm, ⟨43, _⟩ => ⟨S131072x3, .f32⟩
  | .hbm, ⟨44, _⟩ => ⟨S_, .f32⟩
  | .hbm, ⟨45, _⟩ => ⟨S131072x3, .f32⟩
  | .hbm, ⟨46, _⟩ => ⟨S131072x3, .f32⟩
  | .hbm, ⟨47, _⟩ => ⟨S131072x3, .f32⟩
  | .hbm, ⟨48, _⟩ => ⟨S131072x1, .f32⟩
  | .hbm, ⟨49, _⟩ => ⟨S1x1, .f32⟩
  | .hbm, ⟨50, _⟩ => ⟨S131072x1, .f32⟩
  | .hbm, ⟨51, _⟩ => ⟨S131072x1, .f32⟩
  | .hbm, ⟨52, _⟩ => ⟨S131072x1, .f32⟩
  | .hbm, ⟨53, _⟩ => ⟨S131072x1, .f32⟩
  | .hbm, ⟨54, _⟩ => ⟨S_, .f32⟩
  | .hbm, ⟨55, _⟩ => ⟨S131072x1, .f32⟩
  | .hbm, ⟨56, _⟩ => ⟨S131072x1, .f32⟩
  | .hbm, ⟨57, _⟩ => ⟨S_, .f32⟩
  | .hbm, ⟨58, _⟩ => ⟨S131072x1, .f32⟩
  | .hbm, ⟨59, _⟩ => ⟨S131072x1, .f32⟩
  | .hbm, ⟨60, _⟩ => ⟨S131072x4, .f32⟩
  | .hbm, ⟨61, _⟩ => ⟨S1x4, .f32⟩
  | .hbm, ⟨62, _⟩ => ⟨S131072x4, .f32⟩
  | .hbm, ⟨63, _⟩ => ⟨S131072x4, .f32⟩
  | .hbm, ⟨64, _⟩ => ⟨S131072x4, .f32⟩
  | .hbm, ⟨65, _⟩ => ⟨S_, .f32⟩
  | .hbm, ⟨66, _⟩ => ⟨S131072, .f32⟩
  | .hbm, ⟨67, _⟩ => ⟨S131072x1, .f32⟩
  | .hbm, ⟨68, _⟩ => ⟨S131072x1, .f32⟩
  | .hbm, ⟨69, _⟩ => ⟨S_, .f32⟩
  | .hbm, ⟨70, _⟩ => ⟨S131072x1, .f32⟩
  | .hbm, ⟨71, _⟩ => ⟨S131072x1, .f32⟩
  | .hbm, ⟨72, _⟩ => ⟨S131072x4, .f32⟩
  | .hbm, ⟨73, _⟩ => ⟨S131072x4, .f32⟩
  | .hbm, ⟨74, _⟩ => ⟨S131072x62, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_v0 : Ref sig .tc := ⟨.hbm, 64, rfl⟩
abbrev main_call1_cst : Ref sig .tc := ⟨.hbm, 65, rfl⟩
abbrev main_call1_v1 : Ref sig .tc := ⟨.hbm, 66, rfl⟩
abbrev main_call1_v2 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩

abbrev nD : Nat := 1
abbrev τ : Topo := Topo.v7x

variable {F : FTy → Type} [FloatOps F]

class Facts₀ : Prop where
  bcast_S48_S1x48_1 : S48.BroadcastsInDim S1x48 (![1] : Fin 1 → Fin S1x48.rank)
  bcast_S1x48_S131072x48_0_1 : S1x48.BroadcastsInDim S131072x48 (![0, 1] : Fin 2 → Fin S131072x48.rank)
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  bcast_S_S131072x3 : S_.BroadcastsInDim S131072x3 (![] : Fin 0 → Fin S131072x3.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  bcast_S4_S1x4_1 : S4.BroadcastsInDim S1x4 (![1] : Fin 1 → Fin S1x4.rank)
  bcast_S1x4_S131072x4_0_1 : S1x4.BroadcastsInDim S131072x4 (![0, 1] : Fin 2 → Fin S131072x4.rank)
  reducesTo_S131072x4_S131072_d1 : S131072x4.ReducesTo [1] S131072
  h_S_ : 0 < S_.numel
  bcast_S131072_S131072x1_0 : S131072.BroadcastsInDim S131072x1 (![0] : Fin 1 → Fin S131072x1.rank)
  bcast_S131072x1_S131072x4_0_1 : S131072x1.BroadcastsInDim S131072x4 (![0, 1] : Fin 2 → Fin S131072x4.rank)
  concatenates_S131072x48_S131072x3_S131072x3_S131072x3_S131072x1_S131072x4_S131072x62_d1 : Shape.Concatenates [S131072x48, S131072x3, S131072x3, S131072x3, S131072x1, S131072x4] S131072x62 1
  dot_S131072x1024_S1024x48_S131072x48_1_0_0_1_n_n_wf : DotDims.WF S131072x1024 S1024x48 S131072x48 [1] [0] [0] [1] [] []
  dot_S131072x1024_S1024x3_S131072x3_1_0_0_1_n_n_wf : DotDims.WF S131072x1024 S1024x3 S131072x3 [1] [0] [0] [1] [] []
  dot_S131072x1024_S1024x1_S131072x1_1_0_0_1_n_n_wf : DotDims.WF S131072x1024 S1024x1 S131072x1 [1] [0] [0] [1] [] []
  dot_S131072x1024_S1024x4_S131072x4_1_0_0_1_n_n_wf : DotDims.WF S131072x1024 S1024x4 S131072x4 [1] [0] [0] [1] [] []

variable [Facts₀]

def dot_S131072x1024_S1024x48_S131072x48_1_0_0_1_n_n : DotDims S131072x1024 S1024x48 S131072x48 where
  lhsContracting := [1]
  rhsContracting := [0]
  lhsNonContracting := [0]
  rhsNonContracting := [1]
  lhsBatch := []
  rhsBatch := []
  wf := dot_S131072x1024_S1024x48_S131072x48_1_0_0_1_n_n_wf
def dot_S131072x1024_S1024x3_S131072x3_1_0_0_1_n_n : DotDims S131072x1024 S1024x3 S131072x3 where
  lhsContracting := [1]
  rhsContracting := [0]
  lhsNonContracting := [0]
  rhsNonContracting := [1]
  lhsBatch := []
  rhsBatch := []
  wf := dot_S131072x1024_S1024x3_S131072x3_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf
def dot_S131072x1024_S1024x4_S131072x4_1_0_0_1_n_n : DotDims S131072x1024 S1024x4 S131072x4 where
  lhsContracting := [1]
  rhsContracting := [0]
  lhsNonContracting := [0]
  rhsNonContracting := [1]
  lhsBatch := []
  rhsBatch := []
  wf := dot_S131072x1024_S1024x4_S131072x4_1_0_0_1_n_n_wf

class Facts : Prop extends Facts₀ where

variable [Facts]
-- ==== Proof.KEntry.lean ====
/-
  The program up to its one kernel region.

  Before the region the host lays the five weight matrices side by side and the five bias vectors end to end, pads both
  to 128 columns with zeros and views the padded bias as one row. None of those operations writes an argument array,
  so the region finds every argument as it was launched; `V` names what each buffer of a core holds at that moment.
-/
import proofs.«138005_j11982958756329_1_alg».proof.Proof.Gen.Kernel.Launch
import proofs.«138005_j11982958756329_1_alg».proof.Proof.Gen.Kernel.Skeleton
import proofs.«138005_j11982958756329_1_alg».proof.Proof.Gen.Kernel.Points
import Idealize.ShloMosaic.Lib.Pipeline.FrameBody
import Idealize.ShloMosaic.Lib.Ring
import Idealize.ShloMosaic.Lib.Tactic

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The five stretches of host operations before the region, in program order. -/
abbrev pre : List (List (HloOp τ sig (Elt F))) := [hostOps0, hostOps0_1, hostOps0_2, hostOps0_3, hostOps0_4]

/-- What each TensorCore buffer of core `c` holds when the region is entered: the launch contents after those
    host operations. -/
abbrev V (c : Dev nD) (b : Ref sig .tc) : Buf (Elt F) ((c : Thread nD τ).loc b) :=
  StableHlo.after (List.flatten (pre (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (pre (F := F))
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

end Cert.Kernel.Entry

end
-- ==== Proof.KFrame.lean ====
/-
  The kernel region: what one grid step leaves in its output buffer, that the body runs without a fault, and the
  run of the whole program.

  Grid step `t` is handed rows 2048·t … 2048·t + 2047 of the features and of the anchor points, the whole padded
  weight matrix and the padded bias row, each in a staging buffer; it stores one [2048, 62] block into the output's
  staging buffer, covering it whole, and touches nothing else. So after the step each input buffer still holds its
  block and the output buffer holds the body's one stored value of those blocks. From that the pipeline's launch
  theorem gives the run of the program: it terminates without a fault, the output array ends at what the library
  assembles from the steps' blocks, and every other unscoped buffer is as the region found it — in particular the
  twelve arguments, which no host operation and no step writes.
-/
import proofs.«138005_j11982958756329_1_alg».proof.Proof.KEntry

set_option maxRecDepth 16384

noncomputable section

namespace Cert.Kernel.Frm

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every step, fetched there or not (where it is not
    fetched its block index has not moved), for any proof data over the region-entry arrays whose body leaves the block
    in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every step, fetched there or not (where it is not
    fetched its block index has not moved), for any proof data over the region-entry arrays whose body leaves the block
    in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every step, fetched there or not (where it is not
    fetched its block index has not moved), for any proof data over the region-entry arrays whose body leaves the block
    in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every step, fetched there or not (where it is not
    fetched its block index has not moved), for any proof data over the region-entry arrays whose body leaves the block
    in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each one the whole of its buffer -/

abbrev rX : Rect S2048x1024 := Rect.unit (s := S2048x1024) ![0, 0] S2048x1024.size inb_S2048x1024_S2048x1024_0_0
abbrev rP : Rect S2048x3 := Rect.unit (s := S2048x3) ![0, 0] S2048x3.size inb_S2048x3_S2048x3_0_0
abbrev rW : Rect S1024x128 := Rect.unit (s := S1024x128) ![0, 0] S1024x128.size inb_S1024x128_S1024x128_0_0
abbrev rB : Rect S1x128 := Rect.unit (s := S1x128) ![0, 0] S1x128.size inb_S1x128_S1x128_0_0
abbrev rO : Rect S2048x62 := Rect.unit (s := S2048x62) ![0, 0] S2048x62.size inb_S2048x62_S2048x62_0_0

/-! ## What the body leaves in the output window's buffer -/

/-- The output buffer after the body, from the four input blocks: its one store, of the body's one computed value. -/
def outBuf (x : Vec F S2048x1024 .f32) (p : Vec F S2048x3 .f32) (w : Vec F S1024x128 .f32) (b : Vec F S1x128 .f32) : Vec F S2048x62 .f32 :=
  View.canon [⟨rO, k0_pay1 (View.ld x rX) (View.ld w rW) (View.ld b rB) (View.ld p rP)⟩]

/-- The one store is of the whole buffer, so it covers it. -/
theorem coverO (p0 : Vec F S2048x62 .f32) (y : S2048x62.Idx) :
    ∃ pc ∈ ([⟨rO, p0⟩] : List (View.Piece (Elt F) S2048x62 .f32)), y ∈ pc.1.set :=
  View.cover_of_tiled [⟨rO, p0⟩] S2048x62.size (by rfl) y

/-! ## The body's triple -/

set_option maxHeartbeats 1000000 in
/-- The body on whole staging memrefs, the inputs' at contents `x p w b` and the output's at anything, runs to the
    continuation holding the inputs' as they were and the output's at `outBuf x p w b`. -/
theorem sound_kernel (c : Dev nD) (E : Set ℕ) (i : grid0.Coords) (arg1 : Memref sig .tc .vmem S2048x1024 .f32) (harg1 : arg1.IsWhole)
    (arg2 : Memref sig .tc .vmem S2048x3 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x62 .f32) (harg5 : arg5.IsWhole)
    (x : Vec F S2048x1024 .f32) (p : Vec F S2048x3 .f32) (w : Vec F S1024x128 .f32) (b : Vec F S1x128 .f32) (K : PUnit → sProp 𝕄) :
    iprop(owns (c : Thread nD τ) arg1 fullShare x ∗ owns (c : Thread nD τ) arg2 fullShare p ∗ owns (c : Thread nD τ) arg3 fullShare w
        ∗ owns (c : Thread nD τ) arg4 fullShare b ∗ (∃ d, owns (c : Thread nD τ) arg5 fullShare d)
        ∗ (iprop(owns (c : Thread nD τ) arg1 fullShare x ∗ owns (c : Thread nD τ) arg2 fullShare p ∗ owns (c : Thread nD τ) arg3 fullShare w
            ∗ owns (c : Thread nD τ) arg4 fullShare b ∗ owns (c : Thread nD τ) arg5 fullShare (outBuf x p w b)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The pipeline's proof data -/

/-- The proof data of the pipeline on core `c`: the arrays as the region finds them; after the body at step `t` each
    input's buffer at its block and the output's at `outBuf` of the input blocks; nothing else of the core is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBuf (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBuf (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic step -/

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any step: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every step. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    the output array at what the library assembles from the steps' blocks and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the output array is what the library assembles from the steps' blocks. -/
theorem postO (r : PUnit × MemSt nD τ sig (Elt F)) (h : Pipeline.FramePost cfgs (dats m) 0 (V m) r) (c : Dev nD) :
    r.2.mem ((c : Thread nD τ).loc main_v5) = (dats m 0 c).arrAt 4 cfg0.N :=
  (h c).1 4

/-- After the run the features are as launched: window 0 stages them and never writes them back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the anchor points are as launched: window 1 stages them and never writes them back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the run `main_arg2` is as launched: no window stages it, and the region found it as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the run `main_arg3` is as launched: no window stages it, and the region found it as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the run `main_arg4` is as launched: no window stages it, and the region found it as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- After the run `main_arg5` is as launched: no window stages it, and the region found it as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- After the run `main_arg6` is as launched: no window stages it, and the region found it as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
/-- After the run `main_arg7` is as launched: no window stages it, and the region found it as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
/-- After the run `main_arg8` is as launched: no window stages it, and the region found it as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- After the run `main_arg9` is as launched: no window stages it, and the region found it as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
/-- After the run `main_arg10` is as launched: no window stages it, and the region found it as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
/-- After the run `main_arg11` is as launched: no window stages it, and the region found it as launched. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The frame: the program runs to the end without a fault and leaves its twelve arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c⟩) (run_main m ρ)

end Cert.Kernel.Frm

end
-- ==== Proof.KIEntry.lean ====
/-
  The program up to its one kernel region.

  Before the region the host lays the five weight matrices side by side and the five bias vectors end to end, pads both
  to 128 columns with zeros and views the padded bias as one row. None of those operations writes an argument array,
  so the region finds every argument as it was launched; `V` names what each buffer of a core holds at that moment.
-/
import proofs.«138005_j11982958756329_1_alg».proof.Proof.Gen.KernelIdeal.Launch
import proofs.«138005_j11982958756329_1_alg».proof.Proof.Gen.KernelIdeal.Skeleton
import proofs.«138005_j11982958756329_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The five stretches of host operations before the region, in program order. -/
abbrev pre : List (List (HloOp τ sig (Elt F))) := [hostOps0, hostOps0_1, hostOps0_2, hostOps0_3, hostOps0_4]

/-- What each TensorCore buffer of core `c` holds when the region is entered: the launch contents after those
    host operations. -/
abbrev V (c : Dev nD) (b : Ref sig .tc) : Buf (Elt F) ((c : Thread nD τ).loc b) :=
  StableHlo.after (List.flatten (pre (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (pre (F := F))
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

end Cert.KernelIdeal.Entry

end
-- ==== Proof.KIFrame.lean ====
/-
  The kernel region: what one grid step leaves in its output buffer, that the body runs without a fault, and the
  run of the whole program.

  Grid step `t` is handed rows 2048·t … 2048·t + 2047 of the features and of the anchor points, the whole padded
  weight matrix and the padded bias row, each in a staging buffer; it stores one [2048, 62] block into the output's
  staging buffer, covering it whole, and touches nothing else. So after the step each input buffer still holds its
  block and the output buffer holds the body's one stored value of those blocks. From that the pipeline's launch
  theorem gives the run of the program: it terminates without a fault, the output array ends at what the library
  assembles from the steps' blocks, and every other unscoped buffer is as the region found it — in particular the
  twelve arguments, which no host operation and no step writes.
-/
import proofs.«138005_j11982958756329_1_alg».proof.Proof.KIEntry

set_option maxRecDepth 16384

noncomputable section

namespace Cert.KernelIdeal.Frm

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every step, fetched there or not (where it is not
    fetched its block index has not moved), for any proof data over the region-entry arrays whose body leaves the block
    in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every step, fetched there or not (where it is not
    fetched its block index has not moved), for any proof data over the region-entry arrays whose body leaves the block
    in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every step, fetched there or not (where it is not
    fetched its block index has not moved), for any proof data over the region-entry arrays whose body leaves the block
    in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every step, fetched there or not (where it is not
    fetched its block index has not moved), for any proof data over the region-entry arrays whose body leaves the block
    in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each one the whole of its buffer -/

abbrev rX : Rect S2048x1024 := Rect.unit (s := S2048x1024) ![0, 0] S2048x1024.size inb_S2048x1024_S2048x1024_0_0
abbrev rP : Rect S2048x3 := Rect.unit (s := S2048x3) ![0, 0] S2048x3.size inb_S2048x3_S2048x3_0_0
abbrev rW : Rect S1024x128 := Rect.unit (s := S1024x128) ![0, 0] S1024x128.size inb_S1024x128_S1024x128_0_0
abbrev rB : Rect S1x128 := Rect.unit (s := S1x128) ![0, 0] S1x128.size inb_S1x128_S1x128_0_0
abbrev rO : Rect S2048x62 := Rect.unit (s := S2048x62) ![0, 0] S2048x62.size inb_S2048x62_S2048x62_0_0

/-! ## What the body leaves in the output window's buffer -/

/-- The output buffer after the body, from the four input blocks: its one store, of the body's one computed value. -/
def outBuf (x : Vec F S2048x1024 .f32) (p : Vec F S2048x3 .f32) (w : Vec F S1024x128 .f32) (b : Vec F S1x128 .f32) : Vec F S2048x62 .f32 :=
  View.canon [⟨rO, k0_pay1 (View.ld x rX) (View.ld w rW) (View.ld b rB) (View.ld p rP)⟩]

/-- The one store is of the whole buffer, so it covers it. -/
theorem coverO (p0 : Vec F S2048x62 .f32) (y : S2048x62.Idx) :
    ∃ pc ∈ ([⟨rO, p0⟩] : List (View.Piece (Elt F) S2048x62 .f32)), y ∈ pc.1.set :=
  View.cover_of_tiled [⟨rO, p0⟩] S2048x62.size (by rfl) y

/-! ## The body's triple -/

set_option maxHeartbeats 1000000 in
/-- The body on whole staging memrefs, the inputs' at contents `x p w b` and the output's at anything, runs to the
    continuation holding the inputs' as they were and the output's at `outBuf x p w b`. -/
theorem sound_kernel (c : Dev nD) (E : Set ℕ) (i : grid0.Coords) (arg1 : Memref sig .tc .vmem S2048x1024 .f32) (harg1 : arg1.IsWhole)
    (arg2 : Memref sig .tc .vmem S2048x3 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x62 .f32) (harg5 : arg5.IsWhole)
    (x : Vec F S2048x1024 .f32) (p : Vec F S2048x3 .f32) (w : Vec F S1024x128 .f32) (b : Vec F S1x128 .f32) (K : PUnit → sProp 𝕄) :
    iprop(owns (c : Thread nD τ) arg1 fullShare x ∗ owns (c : Thread nD τ) arg2 fullShare p ∗ owns (c : Thread nD τ) arg3 fullShare w
        ∗ owns (c : Thread nD τ) arg4 fullShare b ∗ (∃ d, owns (c : Thread nD τ) arg5 fullShare d)
        ∗ (iprop(owns (c : Thread nD τ) arg1 fullShare x ∗ owns (c : Thread nD τ) arg2 fullShare p ∗ owns (c : Thread nD τ) arg3 fullShare w
            ∗ owns (c : Thread nD τ) arg4 fullShare b ∗ owns (c : Thread nD τ) arg5 fullShare (outBuf x p w b)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The pipeline's proof data -/

/-- The proof data of the pipeline on core `c`: the arrays as the region finds them; after the body at step `t` each
    input's buffer at its block and the output's at `outBuf` of the input blocks; nothing else of the core is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBuf (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBuf (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic step -/

/-- What the body is called with at step `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any step: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every step. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    the output array at what the library assembles from the steps' blocks and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the output array is what the library assembles from the steps' blocks. -/
theorem postO (r : PUnit × MemSt nD τ sig (Elt F)) (h : Pipeline.FramePost cfgs (dats m) 0 (V m) r) (c : Dev nD) :
    r.2.mem ((c : Thread nD τ).loc main_v5) = (dats m 0 c).arrAt 4 cfg0.N :=
  (h c).1 4

/-- After the run the features are as launched: window 0 stages them and never writes them back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the anchor points are as launched: window 1 stages them and never writes them back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the run `main_arg2` is as launched: no window stages it, and the region found it as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
/-- After the run `main_arg3` is as launched: no window stages it, and the region found it as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
/-- After the run `main_arg4` is as launched: no window stages it, and the region found it as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
/-- After the run `main_arg5` is as launched: no window stages it, and the region found it as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
/-- After the run `main_arg6` is as launched: no window stages it, and the region found it as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
/-- After the run `main_arg7` is as launched: no window stages it, and the region found it as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
/-- After the run `main_arg8` is as launched: no window stages it, and the region found it as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
/-- After the run `main_arg9` is as launched: no window stages it, and the region found it as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
/-- After the run `main_arg10` is as launched: no window stages it, and the region found it as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
/-- After the run `main_arg11` is as launched: no window stages it, and the region found it as launched. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The frame: the program runs to the end without a fault and leaves its twelve arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c⟩) (run_main m ρ)

end Cert.KernelIdeal.Frm

end
-- ==== Proof.Spec.lean ====
/-
  What the projection head computes, row by row, over the extended reals.

  A row `n` of the feature matrix `x` (1024 entries) meets five small linear heads whose weight matrices, laid side
  by side, form one [1024, 59] matrix `Wcat` with bias `bcat`: columns 0–47 the spherical-harmonics head, 48–50 the
  scaling head, 51–53 the offset head, 54 the opacity head, 55–58 the rotation head. The 59 pre-activations of the
  row are `y c = (∑ k, x[n, k] · Wcat[k, c]) + bcat[c]`. The 62 outputs of the row are then
    columns  0–47  y c                                   (raw coefficients)
    columns 48–50  min(0.2, max(0, exp (y c)))           (clamped exponential)
    columns 51–53  (logistic (y c) − 1/2) · 0.2          (bounded offset)
    columns 54–56  pts[n, ·] + that offset               (moved anchor point)
    column  57     logistic (y 54)                       (opacity)
    columns 58–61  y c / max(√(∑ₐ y(55+a)²), 1e-12)      (normalised quaternion)
  with the float literals kept as their bit patterns: both programs spell the same words.
-/
import Idealize.ShloMosaic.PureOps.Ideal
import Idealize.ShloMosaic.Lib.ValueIdx

noncomputable section

namespace Cert.Spec

open Idealize.ShloMosaic Idealize.ShloMosaic.ValueIdx
open scoped BigOperators

/-- An array of extended reals over a literal shape. -/
abbrev Arr (s : Shape) : Type := s.Idx → EReal

abbrev SX : Shape := ⟨2, ![131072, 1024]⟩
abbrev SP : Shape := ⟨2, ![131072, 3]⟩
abbrev SW48 : Shape := ⟨2, ![1024, 48]⟩
abbrev SW3 : Shape := ⟨2, ![1024, 3]⟩
abbrev SW1 : Shape := ⟨2, ![1024, 1]⟩
abbrev SW4 : Shape := ⟨2, ![1024, 4]⟩
abbrev SB48 : Shape := ⟨1, ![48]⟩
abbrev SB3 : Shape := ⟨1, ![3]⟩
abbrev SB1 : Shape := ⟨1, ![1]⟩
abbrev SB4 : Shape := ⟨1, ![4]⟩
abbrev SO : Shape := ⟨2, ![131072, 62]⟩

/-- Entry (k, c) of the five weight matrices laid side by side. -/
def Wcat (W0 : Arr SW48) (W1 : Arr SW3) (W2 : Arr SW3) (W3 : Arr SW1) (W4 : Arr SW4) (k : Fin 1024) (c : Fin 59) : EReal :=
  if h0 : c.val < 48 then W0 (ix2 k (⟨c.val, h0⟩ : Fin 48))
  else if h1 : c.val < 51 then W1 (ix2 k (⟨c.val - 48, by omega⟩ : Fin 3))
  else if h2 : c.val < 54 then W2 (ix2 k (⟨c.val - 51, by omega⟩ : Fin 3))
  else if h3 : c.val < 55 then W3 (ix2 k (⟨c.val - 54, by omega⟩ : Fin 1))
  else W4 (ix2 k (⟨c.val - 55, by have := c.isLt; omega⟩ : Fin 4))

/-- Entry c of the five bias vectors laid end to end. -/
def bcat (b0 : Arr SB48) (b1 : Arr SB3) (b2 : Arr SB3) (b3 : Arr SB1) (b4 : Arr SB4) (c : Fin 59) : EReal :=
  if h0 : c.val < 48 then b0 (ix1 (⟨c.val, h0⟩ : Fin 48))
  else if h1 : c.val < 51 then b1 (ix1 (⟨c.val - 48, by omega⟩ : Fin 3))
  else if h2 : c.val < 54 then b2 (ix1 (⟨c.val - 51, by omega⟩ : Fin 3))
  else if h3 : c.val < 55 then b3 (ix1 (⟨c.val - 54, by omega⟩ : Fin 1))
  else b4 (ix1 (⟨c.val - 55, by have := c.isLt; omega⟩ : Fin 4))

/-- One pre-activation: a row of features against a column of weights, plus the bias. -/
def lin (xr : Fin 1024 → EReal) (W : Fin 1024 → Fin 59 → EReal) (b : Fin 59 → EReal) (c : Fin 59) : EReal :=
  (∑ k : Fin 1024, xr k * W k c) + b c

/-- The bounded offset of one coordinate. -/
def offs (v : EReal) : EReal :=
  (Ideal.logistic v - Ideal.ofBits .f32 0x3F000000#32) * Ideal.ofBits .f32 0x3E4CCCCD#32

/-- The clamped exponential of one scale. -/
def scl (v : EReal) : EReal :=
  min (Ideal.ofBits .f32 0x3E4CCCCD#32) (max (Ideal.ofBits .f32 0x00000000#32) (Ideal.exp v))

/-- The length the quaternion is divided by: its Euclidean norm, kept away from zero. -/
def qden (y : Fin 59 → EReal) : EReal :=
  max (Ideal.sqrt (∑ a : Fin 4, y ⟨55 + a.val, by have := a.isLt; omega⟩ * y ⟨55 + a.val, by have := a.isLt; omega⟩))
    (Ideal.ofBits .f32 0x2B8CBCCC#32)

/-- The 62 outputs of one row from its 59 pre-activations and its 3 anchor coordinates. -/
def outRow (y : Fin 59 → EReal) (p : Fin 3 → EReal) (j : Fin 62) : EReal :=
  if h0 : j.val < 48 then y ⟨j.val, by omega⟩
  else if h1 : j.val < 51 then scl (y ⟨j.val, by omega⟩)
  else if h2 : j.val < 54 then offs (y ⟨j.val, by omega⟩)
  else if h3 : j.val < 57 then p ⟨j.val - 54, by omega⟩ + offs (y ⟨j.val - 3, by omega⟩)
  else if h4 : j.val < 58 then Ideal.logistic (y ⟨54, by omega⟩)
  else Ideal.div (y ⟨j.val - 3, by have := j.isLt; omega⟩) (qden y)

/-- The whole result at row `n`, column `j`. -/
def Grow (x : Arr SX) (pts : Arr SP) (W0 : Arr SW48) (b0 : Arr SB48) (W1 : Arr SW3) (b1 : Arr SB3) (W2 : Arr SW3) (b2 : Arr SB3)
    (W3 : Arr SW1) (b3 : Arr SB1) (W4 : Arr SW4) (b4 : Arr SB4) (n : Fin 131072) (j : Fin 62) : EReal :=
  outRow (lin (fun k => x (ix2 n k)) (Wcat W0 W1 W2 W3 W4) (bcat b0 b1 b2 b3 b4)) (fun a => pts (ix2 n a)) j

/-- The whole result as an array. -/
def G (x : Arr SX) (pts : Arr SP) (W0 : Arr SW48) (b0 : Arr SB48) (W1 : Arr SW3) (b1 : Arr SB3) (W2 : Arr SW3) (b2 : Arr SB3)
    (W3 : Arr SW1) (b3 : Arr SB1) (W4 : Arr SW4) (b4 : Arr SB4) : Arr SO :=
  fun i => Grow x pts W0 b0 W1 b1 W2 b2 W3 b3 W4 b4 ⟨(i 0).val, (i 0).isLt⟩ ⟨(i 1).val, (i 1).isLt⟩

theorem G_ix2 (x : Arr SX) (pts : Arr SP) (W0 : Arr SW48) (b0 : Arr SB48) (W1 : Arr SW3) (b1 : Arr SB3) (W2 : Arr SW3) (b2 : Arr SB3)
    (W3 : Arr SW1) (b3 : Arr SB1) (W4 : Arr SW4) (b4 : Arr SB4) (n : Fin 131072) (j : Fin 62) :
    G x pts W0 b0 W1 b1 W2 b2 W3 b3 W4 b4 (ix2 n j) = Grow x pts W0 b0 W1 b1 W2 b2 W3 b3 W4 b4 n j := rfl

end Cert.Spec

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.KIPayload.lean ====
/-
  The body's one stored value, read at row r and column j of its [2048, 62] block, is the row function of Spec.lean
  applied to that row's 59 pre-activations and 3 anchor coordinates.
-/
import proofs.«138005_j11982958756329_1_alg».proof.Proof.Gen.KernelIdeal.Skeleton
import proofs.«138005_j11982958756329_1_alg».proof.Proof.Spec
import proofs.«138005_j11982958756329_1_alg».proof.Proof.LibColumn
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen
open Idealize.ShloMosaic Idealize.ShloMosaic.TcCoe Idealize.ShloMosaic.ValueIdx
open scoped BigOperators

/-- Pre-activation `c` of row `r` of a block: the row of features against column `c` of the padded weights, plus the
    padded bias row's entry `c`. -/
def ypre (x : Vec Ideal S2048x1024 .f32) (w : Vec Ideal S1024x128 .f32) (b : Vec Ideal S1x128 .f32) (r : Fin 2048) (c : Fin 59) : EReal :=
  (∑ k : Fin 1024, x (ix2 r k) * w (ix2 k (⟨c.val, by have := c.isLt; omega⟩ : Fin 128))) + b (ix2 (0 : Fin 1) (⟨c.val, by have := c.isLt; omega⟩ : Fin 128))

/-! ## The product's operand indices

At output entry (r, c) and contraction coordinate k the left operand is read at (r, k) and the right at (k, c): one
lemma per operand axis. -/

/-- Left operand, row axis: the output's row. -/
theorem lhs_dot_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
/-- Left operand, column axis: the contraction coordinate. -/
theorem lhs_dot_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
/-- Right operand, row axis: the contraction coordinate. -/
theorem rhs_dot_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
/-- Right operand, column axis: the output's column. -/
theorem rhs_dot_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The block of pre-activations: features times padded weights, plus the padded bias row laid down every row. -/
def v9 (x : Vec Ideal S2048x1024 .f32) (w : Vec Ideal S1024x128 .f32) (b : Vec Ideal S1x128 .f32) : FVec Ideal S2048x128 .f32 :=
  addf (matmul dot_S2048x1024_S1024x128_S2048x128_1_0_0_1_n_n none (truncf .bf16 x bitsLt_bf16_f32)
      (truncf .bf16 (shapeCast S1024x128 w shapeCasts_S1024x128_S1024x128) bitsLt_bf16_f32) (constant S2048x128 .f32 0x00000000#32))
    (broadcastTo S2048x128 (shapeCast S1x128 b shapeCasts_S1x128_S1x128) broadcasts_S1x128_S2048x128)

/-- Entry (r, c) of the block: the row of features against column `c` of the weights, plus the bias row's entry `c`.
    (The narrowing of the operands before the product is the identity on extended reals, and so is a cast of a shape to
    itself.) -/
theorem v9_at (x : Vec Ideal S2048x1024 .f32) (w : Vec Ideal S1024x128 .f32) (b : Vec Ideal S1x128 .f32) (r : Fin 2048) (c : Fin 128) :
    v9 x w b (ix2 r c) = (∑ k : Fin 1024, x (ix2 r k) * w (ix2 k c)) + b (ix2 (0 : Fin 1) c) := by
  unfold v9
  rw [shapeCast_self, shapeCast_self]
  refine (ValueIdx.addf_apply _ _ _).trans ?_
  congr 1
  · refine (Ideal.matmul_constant_zero_apply dot_S2048x1024_S1024x128_S2048x128_1_0_0_1_n_n none _ _ (ix2 r c)).trans ?_
    rw [← Equiv.sum_comp (ValueIdx.contrEquiv1 dot_S2048x1024_S1024x128_S2048x128_1_0_0_1_n_n 1024 rfl rfl).symm]
    refine Finset.sum_congr rfl fun k _ => ?_
    have hk := ValueIdx.contrEquiv1_symm_val dot_S2048x1024_S1024x128_S2048x128_1_0_0_1_n_n 1024 rfl rfl k
    have el : dot_S2048x1024_S1024x128_S2048x128_1_0_0_1_n_n.lhsIdx (ix2 r c) ((ValueIdx.contrEquiv1 dot_S2048x1024_S1024x128_S2048x128_1_0_0_1_n_n 1024 rfl rfl).symm k) = ix2 r k := funext fun a => Fin.ext (by
      match a with
      | ⟨0, _⟩ => exact lhs_dot_0 _ _
      | ⟨1, _⟩ => exact (lhs_dot_1 _ _).trans hk)
    have er : dot_S2048x1024_S1024x128_S2048x128_1_0_0_1_n_n.rhsIdx (ix2 r c) ((ValueIdx.contrEquiv1 dot_S2048x1024_S1024x128_S2048x128_1_0_0_1_n_n 1024 rfl rfl).symm k) = ix2 k c := funext fun a => Fin.ext (by
      match a with
      | ⟨0, _⟩ => exact (rhs_dot_0 _ _).trans hk
      | ⟨1, _⟩ => exact rhs_dot_1 _ _)
    show x _ * w _ = _
    rw [el, er]
  · exact broadcastTo_apply b broadcasts_S1x128_S2048x128 (ix2 r c) (ix2 (0 : Fin 1) c) (fun a => match a with
      | ⟨0, _⟩ => by show 0 = if (1 : Nat) = 1 then 0 else r.val; rw [if_pos rfl]
      | ⟨1, _⟩ => by show c.val = if (128 : Nat) = 1 then 0 else c.val; rw [if_neg (by decide)])

/-- A pre-activation column of the block is that row's pre-activation. -/
theorem v9_ypre (x : Vec Ideal S2048x1024 .f32) (w : Vec Ideal S1024x128 .f32) (b : Vec Ideal S1x128 .f32) (r : Fin 2048) (c : Fin 128) (hc : c.val < 59) :
    v9 x w b (ix2 r c) = ypre x w b r ⟨c.val, hc⟩ := v9_at x w b r c

/-- A column window of the block starting at column `o`, read at (r, c), is the block at (r, o + c). -/
theorem slice_at {n o : Nat} (h : S2048x128.Slices ![0, o] ⟨2, ![2048, n]⟩) (v : FVec Ideal S2048x128 .f32) (r : Fin 2048) (c : Fin n)
    (hc : o + c.val < 128) :
    extractStridedSlice ⟨2, ![2048, n]⟩ ![0, o] v h (ix2 r c) = v (ix2 r (⟨o + c.val, hc⟩ : Fin 128)) :=
  extractStridedSlice_apply _ v h _ _ (fun a => match a with
    | ⟨0, _⟩ => by show r.val = 0 + r.val; omega
    | ⟨1, _⟩ => rfl)

/-! ## The six column bands

Columns 0–47 of the block as they are; columns 48–50 through the clamped exponential; columns 51–53 through the
bounded offset; the anchor points plus that offset; column 54 through the logistic; columns 55–58 divided by their
row's Euclidean norm kept away from zero. -/

/-- Band 0: the raw coefficients. -/
def pc0 (x : Vec Ideal S2048x1024 .f32) (w : Vec Ideal S1024x128 .f32) (b : Vec Ideal S1x128 .f32) : FVec Ideal S2048x48 .f32 :=
  extractStridedSlice S2048x48 ![0, 0] (v9 x w b) slices_S2048x128_o0_0_S2048x48
/-- Band 1: min(0.2, max(0, exp ·)) of the scale columns. -/
def pc1 (x : Vec Ideal S2048x1024 .f32) (w : Vec Ideal S1024x128 .f32) (b : Vec Ideal S1x128 .f32) : FVec Ideal S2048x3 .f32 :=
  minimumf (broadcast S2048x3 (Scalar.ofBits .f32 0x3E4CCCCD#32))
    (maximumf (broadcast S2048x3 (Scalar.ofBits .f32 0x00000000#32))
      (exp (extractStridedSlice S2048x3 ![0, 48] (v9 x w b) slices_S2048x128_o0_48_S2048x3)))
/-- Band 2: (logistic · − 1/2) · 0.2 of the offset columns. -/
def pc2 (x : Vec Ideal S2048x1024 .f32) (w : Vec Ideal S1024x128 .f32) (b : Vec Ideal S1x128 .f32) : FVec Ideal S2048x3 .f32 :=
  mulf (subf (logistic (extractStridedSlice S2048x3 ![0, 51] (v9 x w b) slices_S2048x128_o0_51_S2048x3))
      (broadcast S2048x3 (Scalar.ofBits .f32 0x3F000000#32)))
    (broadcast S2048x3 (Scalar.ofBits .f32 0x3E4CCCCD#32))
/-- Band 3: the anchor points moved by band 2. -/
def pc3 (x : Vec Ideal S2048x1024 .f32) (w : Vec Ideal S1024x128 .f32) (b : Vec Ideal S1x128 .f32) (p : Vec Ideal S2048x3 .f32) : FVec Ideal S2048x3 .f32 :=
  addf p (pc2 x w b)
/-- Band 4: the logistic of the opacity column. -/
def pc4 (x : Vec Ideal S2048x1024 .f32) (w : Vec Ideal S1024x128 .f32) (b : Vec Ideal S1x128 .f32) : FVec Ideal S2048x1 .f32 :=
  logistic (extractStridedSlice S2048x1 ![0, 54] (v9 x w b) slices_S2048x128_o0_54_S2048x1)
/-- The four rotation columns. -/
def q14 (x : Vec Ideal S2048x1024 .f32) (w : Vec Ideal S1024x128 .f32) (b : Vec Ideal S1x128 .f32) : FVec Ideal S2048x4 .f32 :=
  extractStridedSlice S2048x4 ![0, 55] (v9 x w b) slices_S2048x128_o0_55_S2048x4
/-- The sum of the squares of each row's four rotation pre-activations. -/
def sq (x : Vec Ideal S2048x1024 .f32) (w : Vec Ideal S1024x128 .f32) (b : Vec Ideal S1x128 .f32) : FVec Ideal S2048 .f32 :=
  multiReduction .add [1] S2048 (mulf (q14 x w b) (q14 x w b)) 0x00000000#32 reduces_S2048x4_S2048 (.inl rfl) rfl
/-- Band 5: the rotation columns over max(√(row sum of squares), 1e-12), the divisor laid across the four columns. -/
def pc5 (x : Vec Ideal S2048x1024 .f32) (w : Vec Ideal S1024x128 .f32) (b : Vec Ideal S1x128 .f32) : FVec Ideal S2048x4 .f32 :=
  divf (q14 x w b)
    (broadcastTo S2048x4
      (maximumf (sqrt (shapeCast S2048x1 (sq x w b) shapeCasts_S2048_S2048x1)) (broadcast S2048x1 (Scalar.ofBits .f32 0x2B8CBCCC#32)))
      broadcasts_S2048x1_S2048x4)

/-- The six column bands, in order. -/
abbrev bands (x : Vec Ideal S2048x1024 .f32) (w : Vec Ideal S1024x128 .f32) (b : Vec Ideal S1x128 .f32) (p : Vec Ideal S2048x3 .f32) :
    List ((s : Shape) × (s.Idx → Ideal .f32)) :=
  [⟨S2048x48, pc0 x w b⟩, ⟨S2048x3, pc1 x w b⟩, ⟨S2048x3, pc2 x w b⟩, ⟨S2048x3, pc3 x w b p⟩, ⟨S2048x1, pc4 x w b⟩, ⟨S2048x4, pc5 x w b⟩]

/-- The stored value is the six column bands laid side by side. -/
theorem pay_eq (x : Vec Ideal S2048x1024 .f32) (w : Vec Ideal S1024x128 .f32) (b : Vec Ideal S1x128 .f32) (p : Vec Ideal S2048x3 .f32) :
    k0_pay1 (F := Ideal) x w b p = concatenate S2048x62 1 (bands x w b p)
      concatenates_S2048x48_S2048x3_S2048x3_S2048x3_S2048x1_S2048x4_S2048x62_d1 := rfl

section Bands
variable (x : Vec Ideal S2048x1024 .f32) (w : Vec Ideal S1024x128 .f32) (b : Vec Ideal S1x128 .f32) (p : Vec Ideal S2048x3 .f32) (r : Fin 2048)

/-- A column window of the pre-activation block, read at (r, c): pre-activation `o + c` of the row. -/
theorem win_at {n o : Nat} (h : S2048x128.Slices ![0, o] ⟨2, ![2048, n]⟩) (c : Fin n) (hc : o + c.val < 59) :
    extractStridedSlice ⟨2, ![2048, n]⟩ ![0, o] (v9 x w b) h (ix2 r c) = ypre x w b r ⟨o + c.val, hc⟩ :=
  (slice_at h (v9 x w b) r c (by omega)).trans (v9_ypre x w b r _ hc)

/-- Band 0 at (r, c). -/
theorem pc0_at (c : Fin 48) : pc0 x w b (ix2 r c) = ypre x w b r ⟨c.val, by have := c.isLt; omega⟩ :=
  (win_at x w b r slices_S2048x128_o0_0_S2048x48 c (by have := c.isLt; omega)).trans
    (congrArg (ypre x w b r) (Fin.ext (by show 0 + c.val = c.val; omega)))

/-- Band 1 at (r, c): the clamped exponential of pre-activation 48 + c. -/
theorem pc1_at (c : Fin 3) : pc1 x w b (ix2 r c) = Cert.Spec.scl (ypre x w b r ⟨48 + c.val, by have := c.isLt; omega⟩) :=
  congrArg (fun t => min (Ideal.ofBits .f32 0x3E4CCCCD#32) (max (Ideal.ofBits .f32 0x00000000#32) (Ideal.exp t)))
    (win_at x w b r slices_S2048x128_o0_48_S2048x3 c (by have := c.isLt; omega))

/-- Band 2 at (r, c): the bounded offset of pre-activation 51 + c. -/
theorem pc2_at (c : Fin 3) : pc2 x w b (ix2 r c) = Cert.Spec.offs (ypre x w b r ⟨51 + c.val, by have := c.isLt; omega⟩) :=
  congrArg (fun t => (Ideal.logistic t - Ideal.ofBits .f32 0x3F000000#32) * Ideal.ofBits .f32 0x3E4CCCCD#32)
    (win_at x w b r slices_S2048x128_o0_51_S2048x3 c (by have := c.isLt; omega))

/-- Band 3 at (r, c): anchor coordinate c plus the bounded offset of pre-activation 51 + c. -/
theorem pc3_at (c : Fin 3) : pc3 x w b p (ix2 r c) = p (ix2 r c) + Cert.Spec.offs (ypre x w b r ⟨51 + c.val, by have := c.isLt; omega⟩) :=
  congrArg (fun t => p (ix2 r c) + t) (pc2_at x w b r c)

/-- Band 4 at (r, 0): the logistic of pre-activation 54. -/
theorem pc4_at (c : Fin 1) : pc4 x w b (ix2 r c) = Ideal.logistic (ypre x w b r ⟨54 + c.val, by have := c.isLt; omega⟩) :=
  congrArg Ideal.logistic (win_at x w b r slices_S2048x128_o0_54_S2048x1 c (by have := c.isLt; omega))

/-- The rotation columns at (r, c): pre-activation 55 + c. -/
theorem q14_at (c : Fin 4) : q14 x w b (ix2 r c) = ypre x w b r ⟨55 + c.val, by have := c.isLt; omega⟩ :=
  win_at x w b r slices_S2048x128_o0_55_S2048x4 c (by have := c.isLt; omega)

/-- The sum along a row of a four-column block. -/
theorem rowsum_at (v : FVec Ideal S2048x4 .f32) (hφ : FKind.Formats .f32) (hacc : (0x00000000#32 : BitVec 32) = FKind.add.neutral .f32 hφ) :
    multiReduction (F := Ideal) .add [1] S2048 v 0x00000000#32 reduces_S2048x4_S2048 hφ hacc (ix1 r) = ∑ a : Fin 4, v (ix2 r a) :=
  (Ideal.multiReduction_add_single v 0x00000000#32 reduces_S2048x4_S2048 hφ hacc (ix1 r)).trans
    (Finset.sum_congr rfl fun a _ => congrArg v (funext fun d => Fin.ext (match d with | ⟨0, _⟩ => rfl | ⟨1, _⟩ => rfl)))

/-- The row's sum of squares of pre-activations 55 … 58. -/
theorem sq_at : sq x w b (ix1 r)
    = ∑ a : Fin 4, ypre x w b r ⟨55 + a.val, by have := a.isLt; omega⟩ * ypre x w b r ⟨55 + a.val, by have := a.isLt; omega⟩ :=
  (rowsum_at r (mulf (q14 x w b) (q14 x w b)) (.inl rfl) rfl).trans
    (Finset.sum_congr rfl fun a _ => congrArg₂ (· * ·) (q14_at x w b r a) (q14_at x w b r a))

/-- Band 5 at (r, c): pre-activation 55 + c over the row's kept-away norm (the sum kept as a column and laid across the four
    columns reads the sum at the row). -/
theorem pc5_at (c : Fin 4) : pc5 x w b (ix2 r c) = Ideal.div (ypre x w b r ⟨55 + c.val, by have := c.isLt; omega⟩) (Cert.Spec.qden (ypre x w b r)) := by
  have hden : broadcastTo S2048x4
        (maximumf (sqrt (shapeCast S2048x1 (sq x w b) shapeCasts_S2048_S2048x1)) (broadcast S2048x1 (Scalar.ofBits .f32 0x2B8CBCCC#32)))
        broadcasts_S2048x1_S2048x4 (ix2 r c) = Cert.Spec.qden (ypre x w b r) :=
    (Cert.LibColumn.broadcastTo_a1_ab_apply _ broadcasts_S2048x1_S2048x4 r c).trans
      (congrArg (fun t => max (Ideal.sqrt t) (Ideal.ofBits .f32 0x2B8CBCCC#32))
        ((Cert.LibColumn.shapeCast_a_a1_apply (sq x w b) shapeCasts_S2048_S2048x1 r 0).trans (sq_at x w b r)))
  exact congrArg₂ Ideal.div (q14_at x w b r c) hden

end Bands

/-- The body's stored value at (r, j). -/
theorem pay_apply (x : Vec Ideal S2048x1024 .f32) (w : Vec Ideal S1024x128 .f32) (b : Vec Ideal S1x128 .f32) (p : Vec Ideal S2048x3 .f32)
    (r : Fin 2048) (j : Fin 62) :
    k0_pay1 (F := Ideal) x w b p (ix2 r j) = Cert.Spec.outRow (ypre x w b r) (fun a => p (ix2 r a)) j := by
  have hj := j.isLt
  rw [pay_eq]
  unfold Cert.Spec.outRow
  by_cases h0 : j.val < 48
  · rw [dif_pos h0]
    refine (concatenate_apply_piece (t := S2048x62) 1 (bands x w b p) concatenates_S2048x48_S2048x3_S2048x3_S2048x3_S2048x1_S2048x4_S2048x62_d1 (ix2 r j) 0 (by show (0 : Nat) < 6; omega) S2048x48 (pc0 x w b) rfl rfl 0 rfl
      (ix2 r (⟨j.val, h0⟩ : Fin 48)) (fun d hd => ?_) ?_).trans (pc0_at x w b r _)
    · match d with
      | ⟨0, _⟩ => rfl
      | ⟨1, _⟩ => exact absurd rfl hd
    · show 0 + j.val = j.val; omega
  · rw [dif_neg h0]
    by_cases h1 : j.val < 51
    · rw [dif_pos h1]
      refine (concatenate_apply_piece (t := S2048x62) 1 (bands x w b p) concatenates_S2048x48_S2048x3_S2048x3_S2048x3_S2048x1_S2048x4_S2048x62_d1 (ix2 r j) 1 (by show (1 : Nat) < 6; omega) S2048x3 (pc1 x w b) rfl rfl 48 rfl
        (ix2 r (⟨j.val - 48, by omega⟩ : Fin 3)) (fun d hd => ?_) ?_).trans ((pc1_at x w b r _).trans ?_)
      · match d with
        | ⟨0, _⟩ => rfl
        | ⟨1, _⟩ => exact absurd rfl hd
      · show 48 + (j.val - 48) = j.val; omega
      · exact congrArg (fun t => Cert.Spec.scl (ypre x w b r t)) (Fin.ext (by show 48 + (j.val - 48) = j.val; omega))
    · rw [dif_neg h1]
      by_cases h2 : j.val < 54
      · rw [dif_pos h2]
        refine (concatenate_apply_piece (t := S2048x62) 1 (bands x w b p) concatenates_S2048x48_S2048x3_S2048x3_S2048x3_S2048x1_S2048x4_S2048x62_d1 (ix2 r j) 2 (by show (2 : Nat) < 6; omega) S2048x3 (pc2 x w b) rfl rfl 51 rfl
          (ix2 r (⟨j.val - 51, by omega⟩ : Fin 3)) (fun d hd => ?_) ?_).trans ((pc2_at x w b r _).trans ?_)
        · match d with
          | ⟨0, _⟩ => rfl
          | ⟨1, _⟩ => exact absurd rfl hd
        · show 51 + (j.val - 51) = j.val; omega
        · exact congrArg (fun t => Cert.Spec.offs (ypre x w b r t)) (Fin.ext (by show 51 + (j.val - 51) = j.val; omega))
      · rw [dif_neg h2]
        by_cases h3 : j.val < 57
        · rw [dif_pos h3]
          refine (concatenate_apply_piece (t := S2048x62) 1 (bands x w b p) concatenates_S2048x48_S2048x3_S2048x3_S2048x3_S2048x1_S2048x4_S2048x62_d1 (ix2 r j) 3 (by show (3 : Nat) < 6; omega) S2048x3 (pc3 x w b p) rfl rfl 54 rfl
            (ix2 r (⟨j.val - 54, by omega⟩ : Fin 3)) (fun d hd => ?_) ?_).trans ((pc3_at x w b p r _).trans ?_)
          · match d with
            | ⟨0, _⟩ => rfl
            | ⟨1, _⟩ => exact absurd rfl hd
          · show 54 + (j.val - 54) = j.val; omega
          · exact congrArg (fun t => p (ix2 r (⟨j.val - 54, by omega⟩ : Fin 3)) + Cert.Spec.offs (ypre x w b r t))
              (Fin.ext (by show 51 + (j.val - 54) = j.val - 3; omega))
        · rw [dif_neg h3]
          by_cases h4 : j.val < 58
          · rw [dif_pos h4]
            refine (concatenate_apply_piece (t := S2048x62) 1 (bands x w b p) concatenates_S2048x48_S2048x3_S2048x3_S2048x3_S2048x1_S2048x4_S2048x62_d1 (ix2 r j) 4 (by show (4 : Nat) < 6; omega) S2048x1 (pc4 x w b) rfl rfl 57 rfl
              (ix2 r (⟨j.val - 57, by omega⟩ : Fin 1)) (fun d hd => ?_) ?_).trans ((pc4_at x w b r _).trans ?_)
            · match d with
              | ⟨0, _⟩ => rfl
              | ⟨1, _⟩ => exact absurd rfl hd
            · show 57 + (j.val - 57) = j.val; omega
            · exact congrArg (fun t => Ideal.logistic (ypre x w b r t)) (Fin.ext (by show 54 + (j.val - 57) = 54; omega))
          · rw [dif_neg h4]
            refine (concatenate_apply_piece (t := S2048x62) 1 (bands x w b p) concatenates_S2048x48_S2048x3_S2048x3_S2048x3_S2048x1_S2048x4_S2048x62_d1 (ix2 r j) 5 (by show (5 : Nat) < 6; omega) S2048x4 (pc5 x w b) rfl rfl 58 rfl
              (ix2 r (⟨j.val - 58, by omega⟩ : Fin 4)) (fun d hd => ?_) ?_).trans ((pc5_at x w b r _).trans ?_)
            · match d with
              | ⟨0, _⟩ => rfl
              | ⟨1, _⟩ => exact absurd rfl hd
            · show 58 + (j.val - 58) = j.val; omega
            · exact congrArg (fun t => Ideal.div (ypre x w b r t) (Cert.Spec.qden (ypre x w b r)))
                (Fin.ext (by show 55 + (j.val - 58) = j.val - 3; omega))

end Cert.KernelIdeal.Pay
end
-- ==== Proof.KIHost.lean ====
/-
  What the host operations before the region leave in the two buffers the kernel reads besides the arguments: the padded
  weight matrix holds, in its first 59 columns, the five weight matrices side by side; the padded bias row holds, in its
  first 59 entries, the five bias vectors end to end.
-/
import proofs.«138005_j11982958756329_1_alg».proof.Proof.KIEntry
import proofs.«138005_j11982958756329_1_alg».proof.Proof.Spec
import Idealize.ShloMosaic.Lib.Pipeline.Value
import Idealize.ShloMosaic.Lib.ValueLayout
import Idealize.ShloMosaic.Lib.StableHlo.Run
import Idealize.ShloMosaic.Lib.KernelVsHost

noncomputable section

namespace Cert.KernelIdeal.HostVal

open Cert.KernelIdeal Cert.KernelIdeal.Gen Cert.KernelIdeal.Entry
open Idealize.ShloMosaic Idealize.ShloMosaic.TcCoe Idealize.ShloMosaic.ValueIdx Idealize.SL.Sem

variable (m : (ℓ : Loc nD τ sig) → Buf (Elt Ideal) ℓ)

/-- The padded side-by-side weight matrix read at a column below 59: the padding never enters, and the column falls in
    exactly one of the five pieces. -/
theorem padcat_w (W0 : S1024x48.Idx → EReal) (W1 : S1024x3.Idx → EReal) (W2 : S1024x3.Idx → EReal)
    (W3 : S1024x1.Idx → EReal) (W4 : S1024x4.Idx → EReal) (z : S_.Idx → EReal) (k : Fin 1024) (cc : Fin 59) :
    pad S1024x128 ![0, 0] ![0, 69] ![0, 0]
      (concatenate S1024x59 1 [⟨S1024x48, W0⟩, ⟨S1024x3, W1⟩, ⟨S1024x3, W2⟩, ⟨S1024x1, W3⟩, ⟨S1024x4, W4⟩]
        concatenates_S1024x48_S1024x3_S1024x3_S1024x1_S1024x4_S1024x59_d1) z pads_S1024x59_S1024x128_000_0690 h_S_
      (ix2 k (⟨cc.val, by have := cc.isLt; omega⟩ : Fin 128))
    = Cert.Spec.Wcat W0 W1 W2 W3 W4 k cc := by
  have hcc := cc.isLt
  refine (pad_apply_of_inside _ _ _ _ _ _ _ _ (ix2 k cc) ?_).trans ?_
  · intro a
    match a with
    | ⟨0, _⟩ => show k.val = 0 + k.val * (0 + 1); omega
    | ⟨1, _⟩ => show cc.val = 0 + cc.val * (0 + 1); omega
  · unfold Cert.Spec.Wcat
    by_cases h0 : cc.val < 48
    · rw [dif_pos h0]
      refine concatenate_apply_piece (t := S1024x59) 1 _ _ _ 0 ?_ S1024x48 W0 ?_ rfl 0 ?_ (ix2 k (⟨cc.val, h0⟩ : Fin 48)) ?_ ?_
      · show 0 < 5; omega
      · rfl
      · rfl
      · intro b hb
        match b, hb with
        | ⟨0, _⟩, _ => rfl
        | ⟨1, _⟩, hb => exact absurd rfl hb
      · show 0 + cc.val = cc.val; omega
    rw [dif_neg h0]
    by_cases h1 : cc.val < 51
    · rw [dif_pos h1]
      refine concatenate_apply_piece (t := S1024x59) 1 _ _ _ 1 ?_ S1024x3 W1 ?_ rfl 48 ?_ (ix2 k (⟨cc.val - 48, by omega⟩ : Fin 3)) ?_ ?_
      · show 1 < 5; omega
      · rfl
      · rfl
      · intro b hb
        match b, hb with
        | ⟨0, _⟩, _ => rfl
        | ⟨1, _⟩, hb => exact absurd rfl hb
      · show 48 + (cc.val - 48) = cc.val; omega
    rw [dif_neg h1]
    by_cases h2 : cc.val < 54
    · rw [dif_pos h2]
      refine concatenate_apply_piece (t := S1024x59) 1 _ _ _ 2 ?_ S1024x3 W2 ?_ rfl 51 ?_ (ix2 k (⟨cc.val - 51, by omega⟩ : Fin 3)) ?_ ?_
      · show 2 < 5; omega
      · rfl
      · rfl
      · intro b hb
        match b, hb with
        | ⟨0, _⟩, _ => rfl
        | ⟨1, _⟩, hb => exact absurd rfl hb
      · show 51 + (cc.val - 51) = cc.val; omega
    rw [dif_neg h2]
    by_cases h3 : cc.val < 55
    · rw [dif_pos h3]
      refine concatenate_apply_piece (t := S1024x59) 1 _ _ _ 3 ?_ S1024x1 W3 ?_ rfl 54 ?_ (ix2 k (⟨cc.val - 54, by omega⟩ : Fin 1)) ?_ ?_
      · show 3 < 5; omega
      · rfl
      · rfl
      · intro b hb
        match b, hb with
        | ⟨0, _⟩, _ => rfl
        | ⟨1, _⟩, hb => exact absurd rfl hb
      · show 54 + (cc.val - 54) = cc.val; omega
    rw [dif_neg h3]
    ·
      refine concatenate_apply_piece (t := S1024x59) 1 _ _ _ 4 ?_ S1024x4 W4 ?_ rfl 55 ?_ (ix2 k (⟨cc.val - 55, by omega⟩ : Fin 4)) ?_ ?_
      · show 4 < 5; omega
      · rfl
      · rfl
      · intro b hb
        match b, hb with
        | ⟨0, _⟩, _ => rfl
        | ⟨1, _⟩, hb => exact absurd rfl hb
      · show 55 + (cc.val - 55) = cc.val; omega

/-- The padded end-to-end bias vector, viewed as one row, read at a column below 59: the padding never enters, and the
    column falls in exactly one of the five pieces. -/
theorem padcat_b (b0 : S48.Idx → EReal) (b1 : S3.Idx → EReal) (b2 : S3.Idx → EReal)
    (b3 : S1.Idx → EReal) (b4 : S4.Idx → EReal) (z : S_.Idx → EReal) (cc : Fin 59) :
    shapeCast S1x128
      (pad S128 ![0] ![69] ![0]
        (concatenate S59 0 [⟨S48, b0⟩, ⟨S3, b1⟩, ⟨S3, b2⟩, ⟨S1, b3⟩, ⟨S4, b4⟩] concatenates_S48_S3_S3_S1_S4_S59_d0)
        z pads_S59_S128_0690 h_S_) shapeCasts_S128_S1x128
      (ix2 (0 : Fin 1) (⟨cc.val, by have := cc.isLt; omega⟩ : Fin 128))
    = Cert.Spec.bcat b0 b1 b2 b3 b4 cc := by
  have hcc := cc.isLt
  refine (shapeCast_apply _ _ _ (ix1 (⟨cc.val, by omega⟩ : Fin 128)) ?_).trans ?_
  · rw [Shape.rowMajor_val_one, Shape.rowMajor_val_two]
    show cc.val = 0 * 128 + cc.val; omega
  refine (pad_apply_of_inside _ _ _ _ _ _ _ _ (ix1 cc) ?_).trans ?_
  · intro a
    match a with
    | ⟨0, _⟩ => show cc.val = 0 + cc.val * (0 + 1); omega
  · unfold Cert.Spec.bcat
    by_cases h0 : cc.val < 48
    · rw [dif_pos h0]
      refine concatenate_apply_piece (t := S59) 0 _ _ _ 0 ?_ S48 b0 ?_ rfl 0 ?_ (ix1 (⟨cc.val, h0⟩ : Fin 48)) ?_ ?_
      · show 0 < 5; omega
      · rfl
      · rfl
      · intro b hb
        match b, hb with
        | ⟨0, _⟩, hb => exact absurd rfl hb
      · show 0 + cc.val = cc.val; omega
    rw [dif_neg h0]
    by_cases h1 : cc.val < 51
    · rw [dif_pos h1]
      refine concatenate_apply_piece (t := S59) 0 _ _ _ 1 ?_ S3 b1 ?_ rfl 48 ?_ (ix1 (⟨cc.val - 48, by omega⟩ : Fin 3)) ?_ ?_
      · show 1 < 5; omega
      · rfl
      · rfl
      · intro b hb
        match b, hb with
        | ⟨0, _⟩, hb => exact absurd rfl hb
      · show 48 + (cc.val - 48) = cc.val; omega
    rw [dif_neg h1]
    by_cases h2 : cc.val < 54
    · rw [dif_pos h2]
      refine concatenate_apply_piece (t := S59) 0 _ _ _ 2 ?_ S3 b2 ?_ rfl 51 ?_ (ix1 (⟨cc.val - 51, by omega⟩ : Fin 3)) ?_ ?_
      · show 2 < 5; omega
      · rfl
      · rfl
      · intro b hb
        match b, hb with
        | ⟨0, _⟩, hb => exact absurd rfl hb
      · show 51 + (cc.val - 51) = cc.val; omega
    rw [dif_neg h2]
    by_cases h3 : cc.val < 55
    · rw [dif_pos h3]
      refine concatenate_apply_piece (t := S59) 0 _ _ _ 3 ?_ S1 b3 ?_ rfl 54 ?_ (ix1 (⟨cc.val - 54, by omega⟩ : Fin 1)) ?_ ?_
      · show 3 < 5; omega
      · rfl
      · rfl
      · intro b hb
        match b, hb with
        | ⟨0, _⟩, hb => exact absurd rfl hb
      · show 54 + (cc.val - 54) = cc.val; omega
    rw [dif_neg h3]
    ·
      refine concatenate_apply_piece (t := S59) 0 _ _ _ 4 ?_ S4 b4 ?_ rfl 55 ?_ (ix1 (⟨cc.val - 55, by omega⟩ : Fin 4)) ?_ ?_
      · show 4 < 5; omega
      · rfl
      · rfl
      · intro b hb
        match b, hb with
        | ⟨0, _⟩, hb => exact absurd rfl hb
      · show 55 + (cc.val - 55) = cc.val; omega

/-- Entry (k, c), c < 59, of the padded weight matrix as the region finds it. -/
theorem V_w (c : Dev nD) (k : Fin 1024) (cc : Fin 59) :
    (V m c main_v2 : S1024x128.Idx → EReal) (ix2 k (⟨cc.val, by have := cc.isLt; omega⟩ : Fin 128))
      = Cert.Spec.Wcat (m ((c : Thread nD τ).loc main_arg2)) (m ((c : Thread nD τ).loc main_arg4)) (m ((c : Thread nD τ).loc main_arg6))
          (m ((c : Thread nD τ).loc main_arg8)) (m ((c : Thread nD τ).loc main_arg10)) k cc := by
  have e : (V m c main_v2 : S1024x128.Idx → EReal)
      = pad S1024x128 ![0, 0] ![0, 69] ![0, 0]
          (concatenate S1024x59 1
            [⟨S1024x48, (m ((c : Thread nD τ).loc main_arg2) : S1024x48.Idx → EReal)⟩,
             ⟨S1024x3, (m ((c : Thread nD τ).loc main_arg4) : S1024x3.Idx → EReal)⟩,
             ⟨S1024x3, (m ((c : Thread nD τ).loc main_arg6) : S1024x3.Idx → EReal)⟩,
             ⟨S1024x1, (m ((c : Thread nD τ).loc main_arg8) : S1024x1.Idx → EReal)⟩,
             ⟨S1024x4, (m ((c : Thread nD τ).loc main_arg10) : S1024x4.Idx → EReal)⟩]
            concatenates_S1024x48_S1024x3_S1024x3_S1024x1_S1024x4_S1024x59_d1)
          (sitofp (F := Ideal) .f32 (constantI S_ 32 0#32)) pads_S1024x59_S1024x128_000_0690 h_S_ := by
    dsimp only [Entry.V, Entry.pre]
    simp only [hostOps0, hostOps0_1, hostOps0_2, hostOps0_3, hostOps0_4, List.flatten_cons, List.flatten_nil, List.append_nil,
      List.cons_append, List.nil_append]
    after_results
    rfl
  exact (congrFun e _).trans (padcat_w _ _ _ _ _ _ k cc)

/-- Entry c, c < 59, of the padded bias row as the region finds it. -/
theorem V_b (c : Dev nD) (cc : Fin 59) :
    (V m c main_v4 : S1x128.Idx → EReal) (ix2 (0 : Fin 1) (⟨cc.val, by have := cc.isLt; omega⟩ : Fin 128))
      = Cert.Spec.bcat (m ((c : Thread nD τ).loc main_arg3)) (m ((c : Thread nD τ).loc main_arg5)) (m ((c : Thread nD τ).loc main_arg7))
          (m ((c : Thread nD τ).loc main_arg9)) (m ((c : Thread nD τ).loc main_arg11)) cc := by
  have e : (V m c main_v4 : S1x128.Idx → EReal)
      = shapeCast S1x128
          (pad S128 ![0] ![69] ![0]
            (concatenate S59 0
              [⟨S48, (m ((c : Thread nD τ).loc main_arg3) : S48.Idx → EReal)⟩,
               ⟨S3, (m ((c : Thread nD τ).loc main_arg5) : S3.Idx → EReal)⟩,
               ⟨S3, (m ((c : Thread nD τ).loc main_arg7) : S3.Idx → EReal)⟩,
               ⟨S1, (m ((c : Thread nD τ).loc main_arg9) : S1.Idx → EReal)⟩,
               ⟨S4, (m ((c : Thread nD τ).loc main_arg11) : S4.Idx → EReal)⟩]
              concatenates_S48_S3_S3_S1_S4_S59_d0)
            (sitofp (F := Ideal) .f32 (constantI S_ 32 0#32)) pads_S59_S128_0690 h_S_) shapeCasts_S128_S1x128 := by
    dsimp only [Entry.V, Entry.pre]
    simp only [hostOps0, hostOps0_1, hostOps0_2, hostOps0_3, hostOps0_4, List.flatten_cons, List.flatten_nil, List.append_nil,
      List.cons_append, List.nil_append]
    after_results
    rfl
  exact (congrFun e _).trans (padcat_b _ _ _ _ _ _ cc)

end Cert.KernelIdeal.HostVal

end
-- ==== Proof.KIValue.lean ====
/-
  The output array after the run is the row-by-row function of Spec.lean of the twelve arguments.

  Grid step `t` holds rows 2048·t … 2048·t + 2047: row r of its feature block is row 2048·t + r of the features, likewise
  for the anchor points; the weight and bias windows are the whole padded arrays at every step. The body's stored value at
  (r, j) is the row function of the row's pre-activations (KIPayload.lean), the padded weights and bias hold the joined
  heads in their first 59 columns (KIHost.lean), so what step `t` writes back is block `t` of the whole-array function;
  the 64 blocks tile the [131072, 62] array, which therefore ends holding that function everywhere.
-/
import proofs.«138005_j11982958756329_1_alg».proof.Proof.KIFrame
import proofs.«138005_j11982958756329_1_alg».proof.Proof.KIPayload
import proofs.«138005_j11982958756329_1_alg».proof.Proof.KIHost
import proofs.«138005_j11982958756329_1_alg».proof.Proof.Spec
import Idealize.ShloMosaic.Lib.Pipeline.Value

noncomputable section

namespace Cert.KernelIdeal.Val

open Cert.KernelIdeal Cert.KernelIdeal.Gen Cert.KernelIdeal.Entry Cert.KernelIdeal.Frm
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The whole-array function at core `c`'s launch contents. -/
def Gm (c : Dev nD) : S131072x62.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem hz : (![0, 0] : Fin 2 → Nat) = fun _ => 0 := funext fun a => by fin_cases a <;> rfl

/-- The printed index maps over the grid: the row windows move with the step, the weight and bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input blocks of step `t`, each at its literal type. -/
abbrev xblk (c : Dev nD) (t : Fin cfg0.N) : Vec Ideal S2048x1024 .f32 := iblk m c 0 t
abbrev pblk (c : Dev nD) (t : Fin cfg0.N) : Vec Ideal S2048x3 .f32 := iblk m c 1 t
abbrev wblk (c : Dev nD) (t : Fin cfg0.N) : Vec Ideal S1024x128 .f32 := iblk m c 2 t
abbrev bblk (c : Dev nD) (t : Fin cfg0.N) : Vec Ideal S1x128 .f32 := iblk m c 3 t

/-- Row 2048·t + r of the whole arrays. -/
abbrev rowOf (t : Fin cfg0.N) (r : Fin 2048) : Fin 131072 := ⟨2048 * t.val + r.val, by
  have ht : t.val < 64 := lt_of_lt_of_eq t.isLt N_0
  have := r.isLt; omega⟩

/-- Row r of step t's feature block is row 2048·t + r of the features. -/
theorem xblk_apply (c : Dev nD) (t : Fin cfg0.N) (r : Fin 2048) (k : Fin 1024) :
    xblk m c t (ix2 r k) = (m ((c : Thread nD τ).loc main_arg0)) (ix2 (rowOf t r) k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 2048 + 1 * r.val = 2048 * t.val + r.val; omega
  | ⟨1, _⟩ => show win0_0.index t (1 : Fin 2) * 1024 + 1 * k.val = k.val; omega

/-- Row r of step t's anchor block is row 2048·t + r of the anchor points. -/
theorem pblk_apply (c : Dev nD) (t : Fin cfg0.N) (r : Fin 2048) (a : Fin 3) :
    pblk m c t (ix2 r a) = (m ((c : Thread nD τ).loc main_arg1)) (ix2 (rowOf t r) a) := by
  obtain ⟨-, -, e0, e1, -⟩ := idx_facts t
  show V m c main_arg1 (((cfg0.win 1).blk t).view.emb (ix2 r a)) = _
  rw [V_main_arg1]
  refine congrArg _ (funext fun b => Fin.ext ?_)
  match b with
  | ⟨0, _⟩ => show win0_1.index t (0 : Fin 2) * 2048 + 1 * r.val = 2048 * t.val + r.val; omega
  | ⟨1, _⟩ => show win0_1.index t (1 : Fin 2) * 3 + 1 * a.val = a.val; omega

/-- The weight window's block is the whole padded weight matrix. -/
theorem wblk_apply (c : Dev nD) (t : Fin cfg0.N) (k : Fin 1024) (q : Fin 128) :
    wblk m c t (ix2 k q) = (V m c main_v2 : S1024x128.Idx → EReal) (ix2 k q) := by
  obtain ⟨-, -, -, -, e0, e1, -⟩ := idx_facts t
  show V m c main_v2 (((cfg0.win 2).blk t).view.emb (ix2 k q)) = _
  refine congrArg _ (funext fun b => Fin.ext ?_)
  match b with
  | ⟨0, _⟩ => show win0_2.index t (0 : Fin 2) * 1024 + 1 * k.val = k.val; omega
  | ⟨1, _⟩ => show win0_2.index t (1 : Fin 2) * 128 + 1 * q.val = q.val; omega

/-- The bias window's block is the whole padded bias row. -/
theorem bblk_apply (c : Dev nD) (t : Fin cfg0.N) (z : Fin 1) (q : Fin 128) :
    bblk m c t (ix2 z q) = (V m c main_v4 : S1x128.Idx → EReal) (ix2 z q) := by
  obtain ⟨-, -, -, -, -, -, e0, e1, -⟩ := idx_facts t
  show V m c main_v4 (((cfg0.win 3).blk t).view.emb (ix2 z q)) = _
  refine congrArg _ (funext fun b => Fin.ext ?_)
  match b with
  | ⟨0, _⟩ => show win0_3.index t (0 : Fin 2) * 1 + 1 * z.val = z.val; omega
  | ⟨1, _⟩ => show win0_3.index t (1 : Fin 2) * 128 + 1 * q.val = q.val; omega

/-- The pre-activations of row r of step t are those of row 2048·t + r of the whole arrays. -/
theorem ypre_eq (c : Dev nD) (t : Fin cfg0.N) (r : Fin 2048) (cc : Fin 59) :
    Pay.ypre (xblk m c t) (wblk m c t) (bblk m c t) r cc
      = Cert.Spec.lin (fun k => (m ((c : Thread nD τ).loc main_arg0)) (ix2 (rowOf t r) k))
          (Cert.Spec.Wcat (m ((c : Thread nD τ).loc main_arg2)) (m ((c : Thread nD τ).loc main_arg4)) (m ((c : Thread nD τ).loc main_arg6)) (m ((c : Thread nD τ).loc main_arg8)) (m ((c : Thread nD τ).loc main_arg10)))
          (Cert.Spec.bcat (m ((c : Thread nD τ).loc main_arg3)) (m ((c : Thread nD τ).loc main_arg5)) (m ((c : Thread nD τ).loc main_arg7)) (m ((c : Thread nD τ).loc main_arg9)) (m ((c : Thread nD τ).loc main_arg11))) cc := by
  unfold Pay.ypre Cert.Spec.lin
  rw [bblk_apply, HostVal.V_b]
  refine congrArg (· + _) (Finset.sum_congr rfl fun k _ => ?_)
  rw [xblk_apply, wblk_apply, HostVal.V_w]

/-- What step `t` writes back is block `t` of the whole-array function. -/
theorem flushed_eq (c : Dev nD) (t : Fin cfg0.N) :
    (dats m 0 c).flushed 4 t = ((cfg0.win 4).blk t).view.read (Elt Ideal) (Gm m c) := by
  show (cfg0.win 4).cut (grid0.coords t) ((dats m 0 c).after 4 t) = _
  rw [after4]
  unfold outBuf
  rw [View.canon_unit_zero hz]
  simp only [View.ld_unit_zero (S := S2048x1024) hz, View.ld_unit_zero (S := S2048x3) hz, View.ld_unit_zero (S := S1024x128) hz,
    View.ld_unit_zero (S := S1x128) hz]
  obtain ⟨-, -, -, -, -, -, -, -, e0, e1⟩ := idx_facts t
  funext y
  obtain ⟨r, j, rfl⟩ : ∃ (r : Fin 2048) (j : Fin 62), y = ix2 r j := ⟨y 0, y 1, eq_ix2 y⟩
  have hemb : ((cfg0.win 4).blk t).view.emb (ix2 r j) = (ix2 (rowOf t r) j : S131072x62.Idx) := by
    funext a; apply Fin.ext
    match a with
    | ⟨0, _⟩ => show win0_4.index t (0 : Fin 2) * 2048 + 1 * r.val = 2048 * t.val + r.val; omega
    | ⟨1, _⟩ => show win0_4.index t (1 : Fin 2) * 62 + 1 * j.val = j.val; omega
  show k0_pay1 (F := Ideal) (xblk m c t) (wblk m c t) (bblk m c t) (pblk m c t) (ix2 r j)
      = Gm m c (((cfg0.win 4).blk t).view.emb (ix2 r j))
  rw [hemb, Pay.pay_apply]
  unfold Gm
  rw [Cert.Spec.G_ix2]
  unfold Cert.Spec.Grow
  refine congrArg₂ (fun y p => Cert.Spec.outRow y p j) (funext fun cc => ypre_eq m c t r cc) (funext fun a => pblk_apply m c t r a)

/-- An index of the array is in step `t`'s block iff each coordinate is in the block's range on its axis. -/
theorem mem_blk (t : Fin cfg0.N) (i : S131072x62.Idx) :
    i ∈ ((cfg0.win 4).blk t).view.set ↔ ∀ a : Fin 2, win0_4.index t a * S2048x62.size a ≤ (i a).val ∧ (i a).val < win0_4.index t a * S2048x62.size a + S2048x62.size a := by
  show i ∈ ((View.whole main_v5).slice (win0_4.rect t)).set ↔ _
  rw [View.set_slice_whole, Rect.mem_set_unit]
  exact Iff.rfl

/-- Every row lies in the block of the step that holds it: the 64 blocks tile the array. -/
theorem cover (i : S131072x62.Idx) : ∃ t : Fin cfg0.N, (cfg0.win 4).flush t = true ∧ i ∈ ((cfg0.win 4).blk t).view.set := by
  have hi0 : (i 0).val < 131072 := (i 0).isLt
  have hi1 : (i 1).val < 62 := (i 1).isLt
  let t : Fin cfg0.N := ⟨(i 0).val / 2048, by rw [show cfg0.N = 64 from N_0]; omega⟩
  obtain ⟨-, -, -, -, -, -, -, -, e0, e1⟩ := idx_facts t
  have ht : t.val = (i 0).val / 2048 := rfl
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 62 ≤ (i 1).val ∧ (i 1).val < win0_4.index t (1 : Fin 2) * 62 + 62; omega

/-- The output array after the run is the whole-array function. -/
theorem final (c : Dev nD) : (dats m 0 c).arrAt 4 cfg0.N = Gm m c :=
  (dats m 0 c).arrAt_eq_of_cover 4 (Gm m c) (fun t _ => flushed_eq m c t) cover

/-- The run of the idealized kernel program: it ends with the result at the whole-array function of the arguments and
    the arguments unchanged. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(postO m r h c).trans (final m c), kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c⟩)
    (run_main m ρ)

end Cert.KernelIdeal.Val

end
-- ==== Proof.RefValue.lean ====
/-
  The reference's result, stage by stage, is the row-by-row function of Spec.lean.
-/
import proofs.«138005_j11982958756329_1_alg».proof.Proof.Gen.ReferenceIdeal.Read
import proofs.«138005_j11982958756329_1_alg».proof.Proof.Spec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

section Heads

variable (x0 : (⟨S131072x1024, .f32⟩ : BufTy).Contents (Elt Ideal)) (x1 : (⟨S131072x3, .f32⟩ : BufTy).Contents (Elt Ideal))
    (x2 : (⟨S1024x48, .f32⟩ : BufTy).Contents (Elt Ideal)) (x3 : (⟨S48, .f32⟩ : BufTy).Contents (Elt Ideal))
    (x4 : (⟨S1024x3, .f32⟩ : BufTy).Contents (Elt Ideal)) (x5 : (⟨S3, .f32⟩ : BufTy).Contents (Elt Ideal))
    (x6 : (⟨S1024x3, .f32⟩ : BufTy).Contents (Elt Ideal)) (x7 : (⟨S3, .f32⟩ : BufTy).Contents (Elt Ideal))
    (x8 : (⟨S1024x1, .f32⟩ : BufTy).Contents (Elt Ideal)) (x9 : (⟨S1, .f32⟩ : BufTy).Contents (Elt Ideal))
    (x10 : (⟨S1024x4, .f32⟩ : BufTy).Contents (Elt Ideal)) (x11 : (⟨S4, .f32⟩ : BufTy).Contents (Elt Ideal))

/-- The 59 pre-activations of row `n`. -/
abbrev preAct (n : Fin 131072) : Fin 59 → EReal :=
  Cert.Spec.lin (fun k => x0 (ix2 n k)) (Cert.Spec.Wcat x2 x4 x6 x8 x10) (Cert.Spec.bcat x3 x5 x7 x9 x11)

/-- The spherical-harmonics head at row `n`, column `j`, is pre-activation `j`. -/
theorem v3_at (n : Fin 131072) (j : Fin 48) (c : Fin 59) (hc : c.val = j.val + 0) :
    val_main_v3 (F := Ideal) x0 x2 x3 (ix2 n j) = preAct x0 x2 x3 x4 x5 x6 x7 x8 x9 x10 x11 n c := by
  rw [val_main_v3_apply, val_main_v0_apply, val_main_v2_apply, val_main_v1_apply]
  have hj := j.isLt
  show (∑ k : Fin 1024, _) + _ = (∑ k : Fin 1024, _) + _
  congr 1
  · refine Finset.sum_congr rfl fun k _ => ?_
    have el : lidx_main_v0 (ix2 n j) k = ix2 n k := funext fun a => by
      match a with
      | ⟨0, _⟩ => rfl
      | ⟨1, _⟩ => rfl
    rw [el]
    unfold Cert.Spec.Wcat
    rw [dif_pos (show c.val < 48 by omega)]
    congr 2
    funext a
    match a with
    | ⟨0, _⟩ => rfl
    | ⟨1, _⟩ => exact Fin.ext (by show j.val = c.val; omega)
  · unfold Cert.Spec.bcat
    rw [dif_pos (show c.val < 48 by omega)]
    congr 1
    funext a
    match a with
    | ⟨0, _⟩ => exact Fin.ext (by show j.val = c.val; omega)

/-- The scaling head at row `n`, column `j`, is pre-activation `48 + j`. -/
theorem v7_at (n : Fin 131072) (j : Fin 3) (c : Fin 59) (hc : c.val = j.val + 48) :
    val_main_v7 (F := Ideal) x0 x4 x5 (ix2 n j) = preAct x0 x2 x3 x4 x5 x6 x7 x8 x9 x10 x11 n c := by
  rw [val_main_v7_apply, val_main_v4_apply, val_main_v6_apply, val_main_v5_apply]
  have hj := j.isLt
  show (∑ k : Fin 1024, _) + _ = (∑ k : Fin 1024, _) + _
  congr 1
  · refine Finset.sum_congr rfl fun k _ => ?_
    have el : lidx_main_v4 (ix2 n j) k = ix2 n k := funext fun a => by
      match a with
      | ⟨0, _⟩ => rfl
      | ⟨1, _⟩ => rfl
    rw [el]
    unfold Cert.Spec.Wcat
    rw [dif_neg (show ¬ c.val < 48 by omega), dif_pos (show c.val < 51 by omega)]
    congr 2
    funext a
    match a with
    | ⟨0, _⟩ => rfl
    | ⟨1, _⟩ => exact Fin.ext (by show j.val = c.val - 48; omega)
  · unfold Cert.Spec.bcat
    rw [dif_neg (show ¬ c.val < 48 by omega), dif_pos (show c.val < 51 by omega)]
    congr 1
    funext a
    match a with
    | ⟨0, _⟩ => exact Fin.ext (by show j.val = c.val - 48; omega)

/-- The offset head at row `n`, column `j`, is pre-activation `51 + j`. -/
theorem v13_at (n : Fin 131072) (j : Fin 3) (c : Fin 59) (hc : c.val = j.val + 51) :
    val_main_v13 (F := Ideal) x0 x6 x7 (ix2 n j) = preAct x0 x2 x3 x4 x5 x6 x7 x8 x9 x10 x11 n c := by
  rw [val_main_v13_apply, val_main_v10_apply, val_main_v12_apply, val_main_v11_apply]
  have hj := j.isLt
  show (∑ k : Fin 1024, _) + _ = (∑ k : Fin 1024, _) + _
  congr 1
  · refine Finset.sum_congr rfl fun k _ => ?_
    have el : lidx_main_v10 (ix2 n j) k = ix2 n k := funext fun a => by
      match a with
      | ⟨0, _⟩ => rfl
      | ⟨1, _⟩ => rfl
    rw [el]
    unfold Cert.Spec.Wcat
    rw [dif_neg (show ¬ c.val < 48 by omega), dif_neg (show ¬ c.val < 51 by omega), dif_pos (show c.val < 54 by omega)]
    congr 2
    funext a
    match a with
    | ⟨0, _⟩ => rfl
    | ⟨1, _⟩ => exact Fin.ext (by show j.val = c.val - 51; omega)
  · unfold Cert.Spec.bcat
    rw [dif_neg (show ¬ c.val < 48 by omega), dif_neg (show ¬ c.val < 51 by omega), dif_pos (show c.val < 54 by omega)]
    congr 1
    funext a
    match a with
    | ⟨0, _⟩ => exact Fin.ext (by show j.val = c.val - 51; omega)

/-- The opacity head at row `n` is pre-activation `54`. -/
theorem v28_at (n : Fin 131072) (j : Fin 1) (c : Fin 59) (hc : c.val = j.val + 54) :
    val_main_v28 (F := Ideal) x0 x8 x9 (ix2 n j) = preAct x0 x2 x3 x4 x5 x6 x7 x8 x9 x10 x11 n c := by
  rw [val_main_v28_apply, val_main_v25_apply, val_main_v27_apply, val_main_v26_apply]
  have hj := j.isLt
  show (∑ k : Fin 1024, _) + _ = (∑ k : Fin 1024, _) + _
  congr 1
  · refine Finset.sum_congr rfl fun k _ => ?_
    have el : lidx_main_v25 (ix2 n j) k = ix2 n k := funext fun a => by
      match a with
      | ⟨0, _⟩ => rfl
      | ⟨1, _⟩ => rfl
    rw [el]
    unfold Cert.Spec.Wcat
    rw [dif_neg (show ¬ c.val < 48 by omega), dif_neg (show ¬ c.val < 51 by omega), dif_neg (show ¬ c.val < 54 by omega), dif_pos (show c.val < 55 by omega)]
    congr 2
    funext a
    match a with
    | ⟨0, _⟩ => rfl
    | ⟨1, _⟩ => exact Fin.ext (by show j.val = c.val - 54; omega)
  · unfold Cert.Spec.bcat
    rw [dif_neg (show ¬ c.val < 48 by omega), dif_neg (show ¬ c.val < 51 by omega), dif_neg (show ¬ c.val < 54 by omega), dif_pos (show c.val < 55 by omega)]
    congr 1
    funext a
    match a with
    | ⟨0, _⟩ => exact Fin.ext (by show (0 : Nat) = c.val - 54; omega)

/-- The rotation head at row `n`, column `j`, is pre-activation `55 + j`. -/
theorem v38_at (n : Fin 131072) (j : Fin 4) (c : Fin 59) (hc : c.val = j.val + 55) :
    val_main_v38 (F := Ideal) x0 x10 x11 (ix2 n j) = preAct x0 x2 x3 x4 x5 x6 x7 x8 x9 x10 x11 n c := by
  rw [val_main_v38_apply, val_main_v35_apply, val_main_v37_apply, val_main_v36_apply]
  have hj := j.isLt
  show (∑ k : Fin 1024, _) + _ = (∑ k : Fin 1024, _) + _
  congr 1
  · refine Finset.sum_congr rfl fun k _ => ?_
    have el : lidx_main_v35 (ix2 n j) k = ix2 n k := funext fun a => by
      match a with
      | ⟨0, _⟩ => rfl
      | ⟨1, _⟩ => rfl
    rw [el]
    unfold Cert.Spec.Wcat
    rw [dif_neg (show ¬ c.val < 48 by omega), dif_neg (show ¬ c.val < 51 by omega), dif_neg (show ¬ c.val < 54 by omega), dif_neg (show ¬ c.val < 55 by omega)]
    congr 2
    funext a
    match a with
    | ⟨0, _⟩ => rfl
    | ⟨1, _⟩ => exact Fin.ext (by show j.val = c.val - 55; omega)
  · unfold Cert.Spec.bcat
    rw [dif_neg (show ¬ c.val < 48 by omega), dif_neg (show ¬ c.val < 51 by omega), dif_neg (show ¬ c.val < 54 by omega), dif_neg (show ¬ c.val < 55 by omega)]
    congr 1
    funext a
    match a with
    | ⟨0, _⟩ => exact Fin.ext (by show j.val = c.val - 55; omega)

end Heads

section Pieces

variable (x0 : (⟨S131072x1024, .f32⟩ : BufTy).Contents (Elt Ideal)) (x1 : (⟨S131072x3, .f32⟩ : BufTy).Contents (Elt Ideal))
    (x2 : (⟨S1024x48, .f32⟩ : BufTy).Contents (Elt Ideal)) (x3 : (⟨S48, .f32⟩ : BufTy).Contents (Elt Ideal))
    (x4 : (⟨S1024x3, .f32⟩ : BufTy).Contents (Elt Ideal)) (x5 : (⟨S3, .f32⟩ : BufTy).Contents (Elt Ideal))
    (x6 : (⟨S1024x3, .f32⟩ : BufTy).Contents (Elt Ideal)) (x7 : (⟨S3, .f32⟩ : BufTy).Contents (Elt Ideal))
    (x8 : (⟨S1024x1, .f32⟩ : BufTy).Contents (Elt Ideal)) (x9 : (⟨S1, .f32⟩ : BufTy).Contents (Elt Ideal))
    (x10 : (⟨S1024x4, .f32⟩ : BufTy).Contents (Elt Ideal)) (x11 : (⟨S4, .f32⟩ : BufTy).Contents (Elt Ideal))

/-- The clamped exponential of the scaling head. -/
theorem v9_at (n : Fin 131072) (j : Fin 3) (c : Fin 59) (hc : c.val = j.val + 48) :
    val_main_v9 (F := Ideal) x0 x4 x5 (ix2 n j) = Cert.Spec.scl (preAct x0 x2 x3 x4 x5 x6 x7 x8 x9 x10 x11 n c) := by
  rw [val_main_v9_apply, val_main_call0_v4_apply, val_main_call0_v3_apply, val_main_cst_0_apply,
    val_main_call0_v2_apply, val_main_call0_v1_apply, val_main_call0_v0_apply, val_main_cst_apply,
    val_main_v8_apply, v7_at x0 x2 x3 x4 x5 x6 x7 x8 x9 x10 x11 n j c hc]
  generalize preAct x0 x2 x3 x4 x5 x6 x7 x8 x9 x10 x11 n c = v
  rfl

/-- The bounded offset of the offset head: the reference's quotient `1 / (1 + exp (-v))` is the logistic. -/
theorem v23_at (n : Fin 131072) (j : Fin 3) (c : Fin 59) (hc : c.val = j.val + 51) :
    val_main_v23 (F := Ideal) x0 x6 x7 (ix2 n j) = Cert.Spec.offs (preAct x0 x2 x3 x4 x5 x6 x7 x8 x9 x10 x11 n c) := by
  rw [val_main_v23_apply, val_main_v21_apply, val_main_v19_apply, val_main_v18_apply, val_main_cst_2_apply,
    val_main_v17_apply, val_main_v16_apply, val_main_cst_1_apply, val_main_v15_apply, val_main_v14_apply,
    val_main_v20_apply, val_main_cst_3_apply, val_main_v22_apply, val_main_cst_4_apply, v13_at x0 x2 x3 x4 x5 x6 x7 x8 x9 x10 x11 n j c hc]
  generalize preAct x0 x2 x3 x4 x5 x6 x7 x8 x9 x10 x11 n c = v
  show (Ideal.div (Ideal.ofBits .f32 0x3F800000#32) (Ideal.ofBits .f32 0x3F800000#32 + Ideal.exp (-v))
      - Ideal.ofBits .f32 0x3F000000#32) * Ideal.ofBits .f32 0x3E4CCCCD#32
    = (Ideal.div 1 (1 + Ideal.exp (-v)) - Ideal.ofBits .f32 0x3F000000#32) * Ideal.ofBits .f32 0x3E4CCCCD#32
  rw [Ideal.ofBits_one_f32]

/-- The moved anchor point: the anchor coordinate plus the bounded offset. -/
theorem v24_at (n : Fin 131072) (j : Fin 3) (c : Fin 59) (hc : c.val = j.val + 51) :
    val_main_v24 (F := Ideal) x0 x1 x6 x7 (ix2 n j) = x1 (ix2 n j) + Cert.Spec.offs (preAct x0 x2 x3 x4 x5 x6 x7 x8 x9 x10 x11 n c) := by
  rw [val_main_v24_apply, v23_at x0 x2 x3 x4 x5 x6 x7 x8 x9 x10 x11 n j c hc]
  rfl

/-- The opacity: the reference's quotient `1 / (1 + exp (-v))` is the logistic. -/
theorem v34_at (n : Fin 131072) (j : Fin 1) (c : Fin 59) (hc : c.val = j.val + 54) :
    val_main_v34 (F := Ideal) x0 x8 x9 (ix2 n j) = Ideal.logistic (preAct x0 x2 x3 x4 x5 x6 x7 x8 x9 x10 x11 n c) := by
  rw [val_main_v34_apply, val_main_v33_apply, val_main_cst_6_apply, val_main_v32_apply, val_main_v31_apply,
    val_main_cst_5_apply, val_main_v30_apply, val_main_v29_apply, v28_at x0 x2 x3 x4 x5 x6 x7 x8 x9 x10 x11 n j c hc]
  generalize preAct x0 x2 x3 x4 x5 x6 x7 x8 x9 x10 x11 n c = v
  show Ideal.div (Ideal.ofBits .f32 0x3F800000#32) (Ideal.ofBits .f32 0x3F800000#32 + Ideal.exp (-v))
    = Ideal.div 1 (1 + Ideal.exp (-v))
  rw [Ideal.ofBits_one_f32]

/-- The normalised quaternion: the rotation head over its Euclidean length kept away from zero; the reference's sum of
    squares starts from the zero word. -/
theorem v43_at (n : Fin 131072) (j : Fin 4) (c : Fin 59) (hc : c.val = j.val + 55) :
    val_main_v43 (F := Ideal) x0 x10 x11 (ix2 n j) = Ideal.div (preAct x0 x2 x3 x4 x5 x6 x7 x8 x9 x10 x11 n c) (Cert.Spec.qden (preAct x0 x2 x3 x4 x5 x6 x7 x8 x9 x10 x11 n)) := by
  rw [val_main_v43_apply, val_main_v42_apply, val_main_v41_apply, val_main_v39_apply, val_main_call1_v2_apply,
    val_main_call1_v1_apply, val_main_call1_cst_apply, val_main_v40_apply, val_main_cst_7_apply,
    v38_at x0 x2 x3 x4 x5 x6 x7 x8 x9 x10 x11 n j c hc]
  have hs : ∀ k : Fin 4, val_main_call1_v0 (F := Ideal) x0 x10 x11
        (idx_main_call1_v1 (idx_main_call1_v2 (idx_main_v42 (ix2 n j))) k)
      = preAct x0 x2 x3 x4 x5 x6 x7 x8 x9 x10 x11 n ⟨55 + k.val, by have := k.isLt; omega⟩ * preAct x0 x2 x3 x4 x5 x6 x7 x8 x9 x10 x11 n ⟨55 + k.val, by have := k.isLt; omega⟩ := fun k => by
    have e : idx_main_call1_v1 (idx_main_call1_v2 (idx_main_v42 (ix2 n j))) k = ix2 n k := funext fun a => by
      match a with
      | ⟨0, _⟩ => rfl
      | ⟨1, _⟩ => rfl
    rw [e, val_main_call1_v0_apply,
      v38_at x0 x2 x3 x4 x5 x6 x7 x8 x9 x10 x11 n k ⟨55 + k.val, by have := k.isLt; omega⟩ (by show 55 + k.val = k.val + 55; omega)]
    rfl
  rw [Finset.sum_congr rfl fun k _ => hs k]
  unfold Cert.Spec.qden
  generalize preAct x0 x2 x3 x4 x5 x6 x7 x8 x9 x10 x11 n = y
  show Ideal.div (y c) (max (Ideal.sqrt (Ideal.ofBits .f32 0x00000000#32 + _)) _) = _
  rw [Ideal.ofBits_zero_f32, zero_add]
  rfl

end Pieces

/-- The reference's composed result is `Spec.G` of its twelve arguments. -/
theorem ref_eq_G (x0 : (⟨S131072x1024, .f32⟩ : BufTy).Contents (Elt Ideal)) (x1 : (⟨S131072x3, .f32⟩ : BufTy).Contents (Elt Ideal))
    (x2 : (⟨S1024x48, .f32⟩ : BufTy).Contents (Elt Ideal)) (x3 : (⟨S48, .f32⟩ : BufTy).Contents (Elt Ideal))
    (x4 : (⟨S1024x3, .f32⟩ : BufTy).Contents (Elt Ideal)) (x5 : (⟨S3, .f32⟩ : BufTy).Contents (Elt Ideal))
    (x6 : (⟨S1024x3, .f32⟩ : BufTy).Contents (Elt Ideal)) (x7 : (⟨S3, .f32⟩ : BufTy).Contents (Elt Ideal))
    (x8 : (⟨S1024x1, .f32⟩ : BufTy).Contents (Elt Ideal)) (x9 : (⟨S1, .f32⟩ : BufTy).Contents (Elt Ideal))
    (x10 : (⟨S1024x4, .f32⟩ : BufTy).Contents (Elt Ideal)) (x11 : (⟨S4, .f32⟩ : BufTy).Contents (Elt Ideal)) :
    val_main_v44 (F := Ideal) x0 x1 x2 x3 x4 x5 x6 x7 x8 x9 x10 x11 = Cert.Spec.G x0 x1 x2 x3 x4 x5 x6 x7 x8 x9 x10 x11 := by
  funext i
  obtain ⟨n, j, rfl⟩ : ∃ (n : Fin 131072) (j : Fin 62), i = ix2 n j := ⟨i 0, i 1, eq_ix2 i⟩
  rw [Cert.Spec.G_ix2]
  unfold Cert.Spec.Grow Cert.Spec.outRow
  have hj := j.isLt
  unfold val_main_v44
  by_cases h0 : j.val < 48
  · -- columns 0–47: the raw coefficients
    refine (concatenate_apply_piece (1 : Fin S131072x62.rank) _ _ (ix2 n j) 0 (by show 0 < 6; omega) S131072x48
      (val_main_v3 (F := Ideal) x0 x2 x3) rfl rfl 0 rfl (ix2 n (⟨j.val, by omega⟩ : Fin 48)) ?_ ?_).trans ?_
    · intro b hb
      match b with
      | ⟨0, _⟩ => rfl
      | ⟨1, _⟩ => exact absurd rfl hb
    · show 0 + j.val = j.val
      omega
    · rw [dif_pos h0]
      exact v3_at x0 x2 x3 x4 x5 x6 x7 x8 x9 x10 x11 n _ _ rfl
  by_cases h1 : j.val < 51
  · -- columns 48–50: the clamped exponential
    refine (concatenate_apply_piece (1 : Fin S131072x62.rank) _ _ (ix2 n j) 1 (by show 1 < 6; omega) S131072x3
      (val_main_v9 (F := Ideal) x0 x4 x5) rfl rfl 48 rfl (ix2 n (⟨j.val - 48, by omega⟩ : Fin 3)) ?_ ?_).trans ?_
    · intro b hb
      match b with
      | ⟨0, _⟩ => rfl
      | ⟨1, _⟩ => exact absurd rfl hb
    · show 48 + (j.val - 48) = j.val
      omega
    · rw [dif_neg h0, dif_pos h1]
      exact v9_at x0 x2 x3 x4 x5 x6 x7 x8 x9 x10 x11 n _ _ (by show j.val = j.val - 48 + 48; omega)
  by_cases h2 : j.val < 54
  · -- columns 51–53: the bounded offset
    refine (concatenate_apply_piece (1 : Fin S131072x62.rank) _ _ (ix2 n j) 2 (by show 2 < 6; omega) S131072x3
      (val_main_v23 (F := Ideal) x0 x6 x7) rfl rfl 51 rfl (ix2 n (⟨j.val - 51, by omega⟩ : Fin 3)) ?_ ?_).trans ?_
    · intro b hb
      match b with
      | ⟨0, _⟩ => rfl
      | ⟨1, _⟩ => exact absurd rfl hb
    · show 51 + (j.val - 51) = j.val
      omega
    · rw [dif_neg h0, dif_neg h1, dif_pos h2]
      exact v23_at x0 x2 x3 x4 x5 x6 x7 x8 x9 x10 x11 n _ _ (by show j.val = j.val - 51 + 51; omega)
  by_cases h3 : j.val < 57
  · -- columns 54–56: the moved anchor point
    refine (concatenate_apply_piece (1 : Fin S131072x62.rank) _ _ (ix2 n j) 3 (by show 3 < 6; omega) S131072x3
      (val_main_v24 (F := Ideal) x0 x1 x6 x7) rfl rfl 54 rfl (ix2 n (⟨j.val - 54, by omega⟩ : Fin 3)) ?_ ?_).trans ?_
    · intro b hb
      match b with
      | ⟨0, _⟩ => rfl
      | ⟨1, _⟩ => exact absurd rfl hb
    · show 54 + (j.val - 54) = j.val
      omega
    · rw [dif_neg h0, dif_neg h1, dif_neg h2, dif_pos h3]
      exact v24_at x0 x1 x2 x3 x4 x5 x6 x7 x8 x9 x10 x11 n _ _ (by show j.val - 3 = j.val - 54 + 51; omega)
  by_cases h4 : j.val < 58
  · -- column 57: the opacity
    refine (concatenate_apply_piece (1 : Fin S131072x62.rank) _ _ (ix2 n j) 4 (by show 4 < 6; omega) S131072x1
      (val_main_v34 (F := Ideal) x0 x8 x9) rfl rfl 57 rfl (ix2 n (⟨j.val - 57, by omega⟩ : Fin 1)) ?_ ?_).trans ?_
    · intro b hb
      match b with
      | ⟨0, _⟩ => rfl
      | ⟨1, _⟩ => exact absurd rfl hb
    · show 57 + (j.val - 57) = j.val
      omega
    · rw [dif_neg h0, dif_neg h1, dif_neg h2, dif_neg h3, dif_pos h4]
      exact v34_at x0 x2 x3 x4 x5 x6 x7 x8 x9 x10 x11 n _ _ (by show 54 = j.val - 57 + 54; omega)
  · -- columns 58–61: the normalised quaternion
    refine (concatenate_apply_piece (1 : Fin S131072x62.rank) _ _ (ix2 n j) 5 (by show 5 < 6; omega) S131072x4
      (val_main_v43 (F := Ideal) x0 x10 x11) rfl rfl 58 rfl (ix2 n (⟨j.val - 58, by omega⟩ : Fin 4)) ?_ ?_).trans ?_
    · intro b hb
      match b with
      | ⟨0, _⟩ => rfl
      | ⟨1, _⟩ => exact absurd rfl hb
    · show 58 + (j.val - 58) = j.val
      omega
    · rw [dif_neg h0, dif_neg h1, dif_neg h2, dif_neg h3, dif_neg h4]
      exact v43_at x0 x2 x3 x4 x5 x6 x7 x8 x9 x10 x11 n _ _ (by show j.val - 3 = j.val - 58 + 55; omega)

end Cert.ReferenceIdeal.RefValue

end
-- ==== Proof.lean ====
/-
  The projection head kernel against its reference: the five conjuncts.

  The kernel multiplies a [2048, 1024] block of features by ONE [1024, 128] matrix that holds the five heads' weight
  matrices side by side (zero-padded), adds the joined bias, and applies each head's activation to its own columns; the
  reference multiplies the features by each head's matrix separately. Over the extended reals both are, row by row and
  column by column, the same sum over the 1024 features of the same products plus the same bias entry, followed by the
  same activation — the sums are over the same index set in both, so no law beyond reading each side at an index is
  needed, and the inputs' finiteness is never used. The row-by-row function is Proof/Spec.lean's `G`.

  * The two kernel programs' frames (Proof/KFrame.lean, Proof/KIFrame.lean): the host operations before the region write
    no argument, every grid step leaves its input buffers as found and stores its whole output block, so the launch
    theorem gives termination without a fault and the arguments unchanged.
  * The reference's frame is its run with the result dropped.
  * The idealization rewrote nothing, so there is nothing to preserve.
  * Equivalence: the kernel's output array ends at `G` of the arguments (Proof/KIValue.lean: what a step writes back is
    a block of `G`, and the blocks tile the array), and the reference's composed result is `G` of the arguments
    (Proof/RefValue.lean); the arguments agree.
-/
import proofs.«138005_j11982958756329_1_alg».proof.Defs
import proofs.«138005_j11982958756329_1_alg».proof.Proof.Gen.Kernel
import proofs.«138005_j11982958756329_1_alg».proof.Proof.Gen.KernelIdeal
import proofs.«138005_j11982958756329_1_alg».proof.Proof.Gen.ReferenceIdeal
import proofs.«138005_j11982958756329_1_alg».proof.Proof.Gen.Pre_finite_inputs
import proofs.«138005_j11982958756329_1_alg».proof.Proof.Gen.ReferenceIdeal.Run
import proofs.«138005_j11982958756329_1_alg».proof.Proof.Gen.ReferenceIdeal.Read
import proofs.«138005_j11982958756329_1_alg».proof.Proof.KFrame
import proofs.«138005_j11982958756329_1_alg».proof.Proof.KIFrame
import proofs.«138005_j11982958756329_1_alg».proof.Proof.KIValue
import proofs.«138005_j11982958756329_1_alg».proof.Proof.RefValue
import Idealize.ShloMosaic.Adequacy
import Idealize.ShloMosaic.Init

noncomputable section

namespace Cert.Proof

open Idealize.ShloMosaic Idealize.SL.Sem

/-- The word-level kernel program runs to the end, faults nowhere, and leaves its arguments unchanged. -/
theorem frame_k : Cert.frame_Kernel := fun m ρ _ => Cert.Kernel.Frm.frame m ρ

/-- So does the idealized kernel program. -/
theorem frame_ki : Cert.frame_KernelIdeal := fun m ρ _ => Cert.KernelIdeal.Frm.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at `G` of the arguments, which agree. -/
theorem algebraic : Cert.algebraic_KernelIdeal_ReferenceIdeal := by
  intro m ρ m' ρ' _ hagree
  refine ⟨fun c => Cert.KernelIdeal.Val.Gm m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v44_eq, Cert.ReferenceIdeal.RefValue.ref_eq_G, h0, h1, h2, h3, h4, h5, h6, h7, h8, h9, h10, h11]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
